-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S512x11008 : Shape := ⟨2, ![512, 11008]⟩
abbrev S32x1376 : Shape := ⟨2, ![32, 1376]⟩
abbrev S32x11008 : Shape := ⟨2, ![32, 11008]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S32x11008 : S_.BroadcastsInDim S32x11008 (![] : Fin 0 → Fin S32x11008.rank)
  reducesTo_S32x11008_S_d0_1 : S32x11008.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4x2048x4096 .f32) (main_arg1 : IVec S512x11008 32) (main_arg2 : IVec S32x1376 32) (main_arg3 : FVec F S32x11008 .f32) (main_arg4 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S32x11008 .f32 := Host.absf main_arg3
  let main_cst_0 : FVec F S_ .f32 := constant S_ .f32 0x7F800000#32
  let main_v5 : FVec F S32x11008 .f32 := broadcastInDim S32x11008 ![] bcast_S_S32x11008 main_cst_0
  let main_v6 : IVec S32x11008 1 := cmpf .olt main_v4 main_v5
  let main_c_1 : IVec S_ 1 := constantI S_ 1 1#1
  let main_v7 : IVec S_ 1 := (fun x v => Host.reduce IntOp.andi x v reducesTo_S32x11008_S_d0_1 h_S_) main_v6 main_c_1
  let main_v8 : IVec S_ 1 := andi main_v3 main_v7
  let main_v9 : FVec F S11008 .f32 := Host.absf main_arg4
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S4x2048x4096 : Shape := ⟨3, ![4, 2048, 4096]⟩
abbrev S512x11008 : Shape := ⟨2, ![512, 11008]⟩
abbrev S32x1376 : Shape := ⟨2, ![32, 1376]⟩
abbrev S32x11008 : Shape := ⟨2, ![32, 11008]⟩
abbrev S11008 : Shape := ⟨1, ![11008]⟩
abbrev S4096x11008 : Shape := ⟨2, ![4096, 11008]⟩
abbrev S128x1024 : Shape := ⟨2, ![128, 1024]⟩
abbrev S8x128 : Shape := ⟨2, ![8, 128]⟩
abbrev S8x1024 : Shape := ⟨2, ![8, 1024]⟩
abbrev S1024x1024 : Shape := ⟨2, ![1024, 1024]⟩
abbrev S1x8 : Shape := ⟨2, ![1, 8]⟩
abbrev S8 : Shape := ⟨1, ![8]⟩
abbrev S128x1x1024 : Shape := ⟨3, ![128, 1, 1024]⟩
abbrev S1x8x1 : Shape := ⟨3, ![1, 8, 1]⟩
abbrev S128x8x1024 : Shape := ⟨3, ![128, 8, 1024]⟩
abbrev S8x128x1 : Shape := ⟨3, ![8, 128, 1]⟩
abbrev S1x1x8 : Shape := ⟨3, ![1, 1, 8]⟩
abbrev S8x128x8 : Shape := ⟨3, ![8, 128, 8]⟩
abbrev S8x1x1024 : Shape := ⟨3, ![8, 1, 1024]⟩
abbrev S8x128x1024 : Shape := ⟨3, ![8, 128, 1024]⟩
abbrev S8192x4096 : Shape := ⟨2, ![8192, 4096]⟩
abbrev S1x11008 : Shape := ⟨2, ![1, 11008]⟩
abbrev S8192x11008 : Shape := ⟨2, ![8192, 11008]⟩
abbrev S1024x256 : Shape := ⟨2, ![1024, 256]⟩
abbrev S256x5504 : Shape := ⟨2, ![256, 5504]⟩
abbrev S1x5504 : Shape := ⟨2, ![1, 5504]⟩
abbrev S1024x5504 : Shape := ⟨2, ![1024, 5504]⟩
abbrev S4x2048x11008 : Shape := ⟨3, ![4, 2048, 11008]⟩

abbrev nBuf : Space → Nat
  | .hbm => 11
  | .vmem => 16
  | .smem => 0
  | _ => 0

abbrev bufTy : (tb : Table) → Fin (tcTables nBuf tb) → BufTy
  | .hbm, ⟨0, _⟩ => ⟨S4x2048x4096, .f32⟩
  | .hbm, ⟨1, _⟩ => ⟨S512x11008, .i32⟩
  | .hbm, ⟨2, _⟩ => ⟨S32x1376, .i32⟩
  | .hbm, ⟨3, _⟩ => ⟨S32x11008, .f32⟩
  | .hbm, ⟨4, _⟩ => ⟨S11008, .f32⟩
  | .hbm, ⟨5, _⟩ => ⟨S4096x11008, .bf16⟩
  | .hbm, ⟨6, _⟩ => ⟨S8192x4096, .f32⟩
  | .hbm, ⟨7, _⟩ => ⟨S8192x4096, .bf16⟩
  | .hbm, ⟨8, _⟩ => ⟨S1x11008, .f32⟩
  | .hbm, ⟨9, _⟩ => ⟨S8192x11008, .f32⟩
  | .hbm, ⟨10, _⟩ => ⟨S4x2048x11008, .f32⟩
  | .local _ .vmem, ⟨0, _⟩ => ⟨S128x1024, .i32⟩
  | .local _ .vmem, ⟨1, _⟩ => ⟨S128x1024, .i32⟩
  | .local _ .vmem, ⟨2, _⟩ => ⟨S8x128, .i32⟩
  | .local _ .vmem, ⟨3, _⟩ => ⟨S8x128, .i32⟩
  | .local _ .vmem, ⟨4, _⟩ => ⟨S8x1024, .f32⟩
  | .local _ .vmem, ⟨5, _⟩ => ⟨S8x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x256, .bf16⟩
  | .local _ .vmem, ⟨9, _⟩ => ⟨S1024x256, .bf16⟩
  | .local _ .vmem, ⟨10, _⟩ => ⟨S256x5504, .bf16⟩
  | .local _ .vmem, ⟨11, _⟩ => ⟨S256x5504, .bf16⟩
  | .local _ .vmem, ⟨12, _⟩ => ⟨S1x5504, .f32⟩
  | .local _ .vmem, ⟨13, _⟩ => ⟨S1x5504, .f32⟩
  | .local _ .vmem, ⟨14, _⟩ => ⟨S1024x5504, .f32⟩
  | .local _ .vmem, ⟨15, _⟩ => ⟨S1024x5504, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨2, ![4, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![8, 2, 16], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S256x5504 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x5504 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x5504 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  iota_S1x8_d1_w32 : S1x8.Iotas .tc 32 [1]
  shapeCasts_S1x8_S8 : S1x8.ShapeCasts S8
  inb_S128x1024_S128x1024_0_0 : ∀ a, (![0, 0] : Fin 2 → Nat) a + S128x1024.size a ≤ S128x1024.size a
  h_S128x1024 : 0 < S128x1024.numel
  inb_S8x128_S8x128_0_0 : ∀ a, (![0, 0] : Fin 2 → Nat) a + S8x128.size a ≤ S8x128.size a
  h_S8x128 : 0 < S8x128.numel
  inb_S8x1024_S8x1024_0_0 : ∀ a, (![0, 0] : Fin 2 → Nat) a + S8x1024.size a ≤ S8x1024.size a
  h_S8x1024 : 0 < S8x1024.numel
  shapeCasts_S128x1024_S128x1x1024 : S128x1024.ShapeCasts S128x1x1024
  shapeCasts_S8_S1x8x1 : S8.ShapeCasts S1x8x1
  broadcasts_S128x1x1024_S128x8x1024 : S128x1x1024.Broadcasts S128x8x1024
  broadcasts_S1x8x1_S128x8x1024 : S1x8x1.Broadcasts S128x8x1024
  shapeCasts_S128x8x1024_S1024x1024 : S128x8x1024.ShapeCasts S1024x1024
  shapeCasts_S8x128_S8x128x1 : S8x128.ShapeCasts S8x128x1
  shapeCasts_S8_S1x1x8 : S8.ShapeCasts S1x1x8
  broadcasts_S8x128x1_S8x128x8 : S8x128x1.Broadcasts S8x128x8
  broadcasts_S1x1x8_S8x128x8 : S1x1x8.Broadcasts S8x128x8
  shapeCasts_S8x128x8_S8x1024 : S8x128x8.ShapeCasts S8x1024
  shapeCasts_S8x1024_S8x1x1024 : S8x1024.ShapeCasts S8x1x1024
  shapeCasts_S8x1x1024_S8x1x1024 : S8x1x1024.ShapeCasts S8x1x1024
  broadcasts_S8x1x1024_S8x128x1024 : S8x1x1024.Broadcasts S8x128x1024
  shapeCasts_S8x128x1024_S1024x1024 : S8x128x1024.ShapeCasts S1024x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  packedbf16_S1024x1024_S1024x1024_0_0 : (Rect.unit (s := S1024x1024) ![0, 0] S1024x1024.size inb_S1024x1024_S1024x1024_0_0).PackedRows (EltTy.packing .bf16)
  shapeCasts_S4x2048x4096_S8192x4096 : S4x2048x4096.ShapeCasts S8192x4096
  shapeCasts_S11008_S1x11008 : S11008.ShapeCasts S1x11008
  inb_S1024x5504_S1024x5504_0_0 : ∀ a, (![0, 0] : Fin 2 → Nat) a + S1024x5504.size a ≤ S1024x5504.size a
  h_S1024x5504 : 0 < S1024x5504.numel
  shapeCasts_S1024x5504_S1024x5504 : S1024x5504.ShapeCasts S1024x5504
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x5504_S256x5504_0_0 : ∀ a, (![0, 0] : Fin 2 → Nat) a + S256x5504.size a ≤ S256x5504.size a
  h_S256x5504 : 0 < S256x5504.numel
  shapeCasts_S256x5504_S256x5504 : S256x5504.ShapeCasts S256x5504
  inb_S1x5504_S1x5504_0_0 : ∀ a, (![0, 0] : Fin 2 → Nat) a + S1x5504.size a ≤ S1x5504.size a
  h_S1x5504 : 0 < S1x5504.numel
  shapeCasts_S1x5504_S1x5504 : S1x5504.ShapeCasts S1x5504
  broadcasts_S1x5504_S1024x5504 : S1x5504.Broadcasts S1024x5504
  shapeCasts_S8192x11008_S4x2048x11008 : S8192x11008.ShapeCasts S4x2048x11008
  dot_S1024x256_S256x5504_S1024x5504_1_0_0_1_n_n_wf : DotDims.WF S1024x256 S256x5504 S1024x5504 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S128x1024.size a < S512x11008.size a
  hwx0_0 : ∀ i : grid0.Coords, EltTy.bits .i32 = 32 ∨ (Rect.unit (s := S512x11008) (fun a => cc0_transform_0 i a * S128x1024.size a) (fun a => (Pipeline.Clip.of (cc0_transform_0 i a) (S128x1024.size a) (S512x11008.size a)).extent (S128x1024.size a)) fun a => Pipeline.Clip.inb (Pipeline.Clip.ok_of (hstart0_0 i a))).WholeWords (EltTy.packing .i32)
  hwxs0_0 : ∀ i : grid0.Coords, EltTy.bits .i32 = 32 ∨ (Rect.unit (s := S128x1024) (fun _ => 0) (fun a => (Pipeline.Clip.of (cc0_transform_0 i a) (S128x1024.size a) (S512x11008.size a)).extent (S128x1024.size a)) fun a => (Nat.zero_add _).trans_le (Pipeline.Clip.extent_le (Pipeline.Clip.ok_of (hstart0_0 i a)))).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S8x128.size a < S32x1376.size a
  hwx0_1 : ∀ i : grid0.Coords, EltTy.bits .i32 = 32 ∨ (Rect.unit (s := S32x1376) (fun a => cc0_transform_1 i a * S8x128.size a) (fun a => (Pipeline.Clip.of (cc0_transform_1 i a) (S8x128.size a) (S32x1376.size a)).extent (S8x128.size a)) fun a => Pipeline.Clip.inb (Pipeline.Clip.ok_of (hstart0_1 i a))).WholeWords (EltTy.packing .i32)
  hwxs0_1 : ∀ i : grid0.Coords, EltTy.bits .i32 = 32 ∨ (Rect.unit (s := S8x128) (fun _ => 0) (fun a => (Pipeline.Clip.of (cc0_transform_1 i a) (S8x128.size a) (S32x1376.size a)).extent (S8x128.size a)) fun a => (Nat.zero_add _).trans_le (Pipeline.Clip.extent_le (Pipeline.Clip.ok_of (hstart0_1 i a)))).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S8x1024.size a < S32x11008.size a
  hwx0_2 : ∀ i : grid0.Coords, EltTy.bits .f32 = 32 ∨ (Rect.unit (s := S32x11008) (fun a => cc0_transform_2 i a * S8x1024.size a) (fun a => (Pipeline.Clip.of (cc0_transform_2 i a) (S8x1024.size a) (S32x11008.size a)).extent (S8x1024.size a)) fun a => Pipeline.Clip.inb (Pipeline.Clip.ok_of (hstart0_2 i a))).WholeWords (EltTy.packing .f32)
  hwxs0_2 : ∀ i : grid0.Coords, EltTy.bits .f32 = 32 ∨ (Rect.unit (s := S8x1024) (fun _ => 0) (fun a => (Pipeline.Clip.of (cc0_transform_2 i a) (S8x1024.size a) (S32x11008.size a)).extent (S8x1024.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1024x1024.size a < S4096x11008.size a
  hwx0_3 : ∀ i : grid0.Coords, EltTy.bits .bf16 = 32 ∨ (Rect.unit (s := S4096x11008) (fun a => cc0_transform_3 i a * S1024x1024.size a) (fun a => (Pipeline.Clip.of (cc0_transform_3 i a) (S1024x1024.size a) (S4096x11008.size a)).extent (S1024x1024.size a)) fun a => Pipeline.Clip.inb (Pipeline.Clip.ok_of (hstart0_3 i a))).WholeWords (EltTy.packing .bf16)
  hwxs0_3 : ∀ i : grid0.Coords, EltTy.bits .bf16 = 32 ∨ (Rect.unit (s := S1024x1024) (fun _ => 0) (fun a => (Pipeline.Clip.of (cc0_transform_3 i a) (S1024x1024.size a) (S4096x11008.size a)).extent (S1024x1024.size a)) fun a => (Nat.zero_add _).trans_le (Pipeline.Clip.extent_le (Pipeline.Clip.ok_of (hstart0_3 i a)))).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x4096.size a
  hwx1_0 : ∀ i : grid1.Coords, EltTy.bits .bf16 = 32 ∨ (Rect.block (s := S8192x4096) S1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x5504.size a ≤ S4096x11008.size a
  hwx1_1 : ∀ i : grid1.Coords, EltTy.bits .bf16 = 32 ∨ (Rect.block (s := S4096x11008) S256x5504.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x5504.size a ≤ S1x11008.size a
  hwx1_2 : ∀ i : grid1.Coords, EltTy.bits .f32 = 32 ∨ (Rect.block (s := S1x11008) S1x5504.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x5504.size a ≤ S8192x11008.size a
  hwx1_3 : ∀ i : grid1.Coords, EltTy.bits .f32 = 32 ∨ (Rect.block (s := S8192x11008) S1024x5504.size (cc1_transform_3 i) (hinb1_3 i)).WholeWords (EltTy.packing .f32)

variable [Facts₀]

def dot_S1024x256_S256x5504_S1024x5504_1_0_0_1_n_n : DotDims S1024x256 S256x5504 S1024x5504 where
  lhsContracting := [1]
  rhsContracting := [0]
  lhsNonContracting := [0]
  rhsNonContracting := [1]
  lhsBatch := []
  rhsBatch := []
  wf := dot_S1024x256_S256x5504_S1024x5504_1_0_0_1_n_n_wf

abbrev win0_0 : Pipeline.Window sig grid0 :=
  Pipeline.Window.ofSpecClip (Memref.whole main_arg1) S128x1024.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg2) S8x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg3) S8x1024.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v0) S1024x1024.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S256x5504.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x5504.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024x5504.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S512x11008 : Shape := ⟨2, ![512, 11008]⟩
abbrev S32x1376 : Shape := ⟨2, ![32, 1376]⟩
abbrev S32x11008 : Shape := ⟨2, ![32, 11008]⟩
abbrev S11008 : Shape := ⟨1, ![11008]⟩
abbrev S8 : Shape := ⟨1, ![8]⟩
abbrev S_ : Shape := ⟨0, ![]⟩
abbrev S32x1376x1 : Shape := ⟨3, ![32, 1376, 1]⟩
abbrev S1x1x8 : Shape := ⟨3, ![1, 1, 8]⟩
abbrev S32x1376x8 : Shape := ⟨3, ![32, 1376, 8]⟩
abbrev S512x1x11008 : Shape := ⟨3, ![512, 1, 11008]⟩
abbrev S1x8x1 : Shape := ⟨3, ![1, 8, 1]⟩
abbrev S512x8x11008 : Shape := ⟨3, ![512, 8, 11008]⟩
abbrev S4096x11008 : Shape := ⟨2, ![4096, 11008]⟩
abbrev S32x128x11008 : Shape := ⟨3, ![32, 128, 11008]⟩
abbrev S8192x4096 : Shape := ⟨2, ![8192, 4096]⟩
abbrev S8192x11008 : Shape := ⟨2, ![8192, 11008]⟩
abbrev S4x2048x11008 : Shape := ⟨3, ![4, 2048, 11008]⟩
abbrev S1x1x11008 : Shape := ⟨3, ![1, 1, 11008]⟩

abbrev nBuf : Space → Nat
  | .hbm => 44
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S512x11008, .i32⟩
  | .hbm, ⟨2, _⟩ => ⟨S32x1376, .i32⟩
  | .hbm, ⟨3, _⟩ => ⟨S32x11008, .f32⟩
  | .hbm, ⟨4, _⟩ => ⟨S11008, .f32⟩
  | .hbm, ⟨5, _⟩ => ⟨S8, .i32⟩
  | .hbm, ⟨6, _⟩ => ⟨S_, .i32⟩
  | .hbm, ⟨7, _⟩ => ⟨S8, .i32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S32x1376x1, .i32⟩
  | .hbm, ⟨13, _⟩ => ⟨S1x1x8, .i32⟩
  | .hbm, ⟨14, _⟩ => ⟨S32x1376x8, .i32⟩
  | .hbm, ⟨15, _⟩ => ⟨S32x1376x8, .i32⟩
  | .hbm, ⟨16, _⟩ => ⟨S32x1376x8, .i32⟩
  | .hbm, ⟨17, _⟩ => ⟨S_, .i32⟩
  | .hbm, ⟨18, _⟩ => ⟨S32x1376x8, .i32⟩
  | .hbm, ⟨19, _⟩ => ⟨S32x1376x8, .i32⟩
  | .hbm, ⟨20, _⟩ => ⟨S32x11008, .i32⟩
  | .hbm, ⟨21, _⟩ => ⟨S512x1x11008, .i32⟩
  | .hbm, ⟨22, _⟩ => ⟨S1x8x1, .i32⟩
  | .hbm, ⟨23, _⟩ => ⟨S512x8x11008, .i32⟩
  | .hbm, ⟨24, _⟩ => ⟨S512x8x11008, .i32⟩
  | .hbm, ⟨25, _⟩ => ⟨S512x8x11008, .i32⟩
  | .hbm, ⟨26, _⟩ => ⟨S_, .i32⟩
  | .hbm, ⟨27, _⟩ => ⟨S512x8x11008, .i32⟩
  | .hbm, ⟨28, _⟩ => ⟨S512x8x11008, .i32⟩
  | .hbm, ⟨29, _⟩ => ⟨S4096x11008, .i32⟩
  | .hbm, ⟨30, _⟩ => ⟨S32x128x11008, .f32⟩
  | .hbm, ⟨31, _⟩ => ⟨S4096x11008, .f32⟩
  | .hbm, ⟨32, _⟩ => ⟨S32x128x11008, .i32⟩
  | .hbm, ⟨33, _⟩ => ⟨S4096x11008, .i32⟩
  | .hbm, ⟨34, _⟩ => ⟨S4096x11008, .f32⟩
  | .hbm, ⟨35, _⟩ => ⟨S4096x11008, .f32⟩
  | .hbm, ⟨36, _⟩ => ⟨S4096x11008, .f32⟩
  | .hbm, ⟨37, _⟩ => ⟨S4096x11008, .f32⟩
  | .hbm, ⟨38, _⟩ => ⟨S8192x4096, .f32⟩
  | .hbm, ⟨39, _⟩ => ⟨S8192x11008, .f32⟩
  | .hbm, ⟨40, _⟩ => ⟨S4x2048x11008, .f32⟩
  | .hbm, ⟨41, _⟩ => ⟨S1x1x11008, .f32⟩
  | .hbm, ⟨42, _⟩ => ⟨S4x2048x11008, .f32⟩
  | .hbm, ⟨43, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S32x1376_S32x1376x1_0_1 : S32x1376.BroadcastsInDim S32x1376x1 (![0, 1] : Fin 2 → Fin S32x1376x1.rank)
  bcast_S8_S1x1x8_2 : S8.BroadcastsInDim S1x1x8 (![2] : Fin 1 → Fin S1x1x8.rank)
  bcast_S32x1376x1_S32x1376x8_0_1_2 : S32x1376x1.BroadcastsInDim S32x1376x8 (![0, 1, 2] : Fin 3 → Fin S32x1376x8.rank)
  bcast_S1x1x8_S32x1376x8_0_1_2 : S1x1x8.BroadcastsInDim S32x1376x8 (![0, 1, 2] : Fin 3 → Fin S32x1376x8.rank)
  bcast_S_S32x1376x8 : S_.BroadcastsInDim S32x1376x8 (![] : Fin 0 → Fin S32x1376x8.rank)
  shapeCasts_S32x1376x8_S32x11008 : S32x1376x8.ShapeCasts S32x11008
  bcast_S512x11008_S512x1x11008_0_2 : S512x11008.BroadcastsInDim S512x1x11008 (![0, 2] : Fin 2 → Fin S512x1x11008.rank)
  bcast_S8_S1x8x1_1 : S8.BroadcastsInDim S1x8x1 (![1] : Fin 1 → Fin S1x8x1.rank)
  bcast_S512x1x11008_S512x8x11008_0_1_2 : S512x1x11008.BroadcastsInDim S512x8x11008 (![0, 1, 2] : Fin 3 → Fin S512x8x11008.rank)
  bcast_S1x8x1_S512x8x11008_0_1_2 : S1x8x1.BroadcastsInDim S512x8x11008 (![0, 1, 2] : Fin 3 → Fin S512x8x11008.rank)
  bcast_S_S512x8x11008 : S_.BroadcastsInDim S512x8x11008 (![] : Fin 0 → Fin S512x8x11008.rank)
  shapeCasts_S512x8x11008_S4096x11008 : S512x8x11008.ShapeCasts S4096x11008
  bcast_S32x11008_S32x128x11008_0_2 : S32x11008.BroadcastsInDim S32x128x11008 (![0, 2] : Fin 2 → Fin S32x128x11008.rank)
  shapeCasts_S32x128x11008_S4096x11008 : S32x128x11008.ShapeCasts S4096x11008
  shapeCasts_S4x2048x4096_S8192x4096 : S4x2048x4096.ShapeCasts S8192x4096
  shapeCasts_S8192x11008_S4x2048x11008 : S8192x11008.ShapeCasts S4x2048x11008
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  dot_S8192x4096_S4096x11008_S8192x11008_1_0_0_1_n_n_wf : DotDims.WF S8192x4096 S4096x11008 S8192x11008 [1] [0] [0] [1] [] []

variable [Facts₀]

def dot_S8192x4096_S4096x11008_S8192x11008_1_0_0_1_n_n : DotDims S8192x4096 S4096x11008 S8192x11008 where
  lhsContracting := [1]
  rhsContracting := [0]
  lhsNonContracting := [0]
  rhsNonContracting := [1]
  lhsBatch := []
  rhsBatch := []
  wf := dot_S8192x4096_S4096x11008_S8192x11008_1_0_0_1_n_n_wf

class Facts : Prop extends Facts₀ where

variable [Facts]
-- ==== Proof.KernelIdeal.Pay0.lean ====
/-
  The dequantised tile, entry by entry. Row `r` of the 1024 x 1024 tile is nibble `r % 8` of packed-weight row `r / 8`,
  in quantisation group `r / 128` of the tile's eight groups; column `n` takes its zero point from nibble `n % 8` of
  packed-zero column `n / 8`. So the entry at `(r, n)` is  scale[r / 128, n] * (nibble(qw[r / 8, n], r % 8) - nibble(qz[r / 128, n / 8], n % 8)),
  where nibble(q, e) = (q >> 4e) & 15 with the arithmetic shift. It reads ONE entry of each input, in the same column
  tile position as itself: a column inside the array reads input columns inside their arrays.
-/
import proofs.«420482_j81174881894900_2_alg».proof.Proof.Gen.KernelIdeal.Skeleton
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.ValueIdx

variable {F : FTy → Type} [FloatOps F]

/-- Nibble `e` of the word `q`: `(q >> 4e) & 15`, the shift arithmetic, the shift amount the word `0 + 4 * e`. -/
def nib (q : BitVec 32) (e : ℕ) : BitVec 32 :=
  IntOp.andi (IntOp.shrsi .vector q (IntOp.addi 0#32 (IntOp.muli 4#32 (BitVec.ofNat 32 e)))) 15#32

/-- One dequantised weight: `s * (nibble(qw, r % 8) - nibble(qz, n % 8))`, rounded to the narrower format. -/
def deq (qw qz : BitVec 32) (s : F .f32) (r n : ℕ) : F .bf16 :=
  FloatOps.truncf .bf16 (by decide)
    (FloatOps.mulf s (FloatOps.subf (FloatOps.sitofp .f32 (nib qw (r % 8))) (FloatOps.sitofp .f32 (nib qz (n % 8)))))

/-! ## The reshapes and broadcasts of the tile, each read at explicit coordinates -/

section Layout
variable {α : Type}

/-- [128,8,1024] viewed [1024,1024]: row `r` is nibble `r % 8` of packed row `r / 8`
    (position `8192 (r / 8) + 1024 (r % 8) + n = 1024 r + n`). -/
theorem cast_rows8 (x : S128x8x1024.Idx → α) (h : S128x8x1024.ShapeCasts S1024x1024) (r n : Fin 1024) :
    shapeCast S1024x1024 x h (ix2 r n)
      = x (ix3 (⟨r.val / 8, by omega⟩ : Fin 128) (⟨r.val % 8, by omega⟩ : Fin 8) n) := by
  refine shapeCast_apply x h _ _ ?_
  rw [Shape.rowMajor_val_three, Shape.rowMajor_val_two]
  show (r.val / 8 * 8 + r.val % 8) * 1024 + n.val = r.val * 1024 + n.val
  omega

/-- [8,128,8] viewed [8,1024]: column `n` is nibble `n % 8` of packed column `n / 8`. -/
theorem cast_cols8 (x : S8x128x8.Idx → α) (h : S8x128x8.ShapeCasts S8x1024) (g : Fin 8) (n : Fin 1024) :
    shapeCast S8x1024 x h (ix2 g n)
      = x (ix3 g (⟨n.val / 8, by omega⟩ : Fin 128) (⟨n.val % 8, by omega⟩ : Fin 8)) := by
  refine shapeCast_apply x h _ _ ?_
  rw [Shape.rowMajor_val_three, Shape.rowMajor_val_two]
  show (g.val * 128 + n.val / 8) * 8 + n.val % 8 = g.val * 1024 + n.val
  omega

/-- [8,128,1024] viewed [1024,1024]: row `r` is row `r % 128` of group `r / 128`. -/
theorem cast_rows128 (x : S8x128x1024.Idx → α) (h : S8x128x1024.ShapeCasts S1024x1024) (r n : Fin 1024) :
    shapeCast S1024x1024 x h (ix2 r n)
      = x (ix3 (⟨r.val / 128, by omega⟩ : Fin 8) (⟨r.val % 128, by omega⟩ : Fin 128) n) := by
  refine shapeCast_apply x h _ _ ?_
  rw [Shape.rowMajor_val_three, Shape.rowMajor_val_two]
  show (r.val / 128 * 128 + r.val % 128) * 1024 + n.val = r.val * 1024 + n.val
  omega

/-- [128,1024] viewed [128,1,1024]. -/
theorem cast_mid128 (x : S128x1024.Idx → α) (h : S128x1024.ShapeCasts S128x1x1024) (a : Fin 128) (z : Fin 1) (n : Fin 1024) :
    shapeCast S128x1x1024 x h (ix3 a z n) = x (ix2 a n) := by
  refine shapeCast_apply x h _ _ ?_
  rw [Shape.rowMajor_val_three, Shape.rowMajor_val_two]
  show a.val * 1024 + n.val = (a.val * 1 + z.val) * 1024 + n.val
  omega

/-- [8,1024] viewed [8,1,1024]. -/
theorem cast_mid8 (x : S8x1024.Idx → α) (h : S8x1024.ShapeCasts S8x1x1024) (g : Fin 8) (z : Fin 1) (n : Fin 1024) :
    shapeCast S8x1x1024 x h (ix3 g z n) = x (ix2 g n) := by
  refine shapeCast_apply x h _ _ ?_
  rw [Shape.rowMajor_val_three, Shape.rowMajor_val_two]
  show g.val * 1024 + n.val = (g.val * 1 + z.val) * 1024 + n.val
  omega

/-- [8,128] viewed [8,128,1]. -/
theorem cast_last1 (x : S8x128.Idx → α) (h : S8x128.ShapeCasts S8x128x1) (g : Fin 8) (c : Fin 128) (z : Fin 1) :
    shapeCast S8x128x1 x h (ix3 g c z) = x (ix2 g c) := by
  refine shapeCast_apply x h _ _ ?_
  rw [Shape.rowMajor_val_three, Shape.rowMajor_val_two]
  show g.val * 128 + c.val = (g.val * 128 + c.val) * 1 + z.val
  omega

/-- [8] viewed [1,8,1]. -/
theorem cast_8_mid (x : S8.Idx → α) (h : S8.ShapeCasts S1x8x1) (z : Fin 1) (e : Fin 8) (z' : Fin 1) :
    shapeCast S1x8x1 x h (ix3 z e z') = x (ix1 e) := by
  refine shapeCast_apply x h _ _ ?_
  rw [Shape.rowMajor_val_three, Shape.rowMajor_val_one]
  show e.val = (z.val * 8 + e.val) * 1 + z'.val
  omega

/-- [8] viewed [1,1,8]. -/
theorem cast_8_last (x : S8.Idx → α) (h : S8.ShapeCasts S1x1x8) (z z' : Fin 1) (e : Fin 8) :
    shapeCast S1x1x8 x h (ix3 z z' e) = x (ix1 e) := by
  refine shapeCast_apply x h _ _ ?_
  rw [Shape.rowMajor_val_three, Shape.rowMajor_val_one]
  show e.val = (z.val * 1 + z'.val) * 8 + e.val
  omega

/-- [1,8] viewed [8]. -/
theorem cast_1x8 (x : S1x8.Idx → α) (h : S1x8.ShapeCasts S8) (e : Fin 8) :
    shapeCast S8 x h (ix1 e) = x (ix2 (0 : Fin 1) e) := by
  refine shapeCast_apply x h _ _ ?_
  rw [Shape.rowMajor_val_two, Shape.rowMajor_val_one]
  show 0 * 8 + e.val = e.val
  omega

end Layout

section Spread
variable {α : Type}

/-- [128,1,1024] spread over the eight nibbles. -/
theorem spread_rows (x : S128x1x1024.Idx → α) (h : S128x1x1024.Broadcasts S128x8x1024) (a : Fin 128) (e : Fin 8) (n : Fin 1024) :
    broadcastTo S128x8x1024 x h (ix3 a e n) = x (ix3 a (0 : Fin 1) n) :=
  broadcastTo_apply x h _ _ (fun b => match b with | ⟨0, _⟩ => rfl | ⟨1, _⟩ => rfl | ⟨2, _⟩ => rfl)

/-- [1,8,1] spread over rows and columns. -/
theorem spread_shift_rows (x : S1x8x1.Idx → α) (h : S1x8x1.Broadcasts S128x8x1024) (a : Fin 128) (e : Fin 8) (n : Fin 1024) :
    broadcastTo S128x8x1024 x h (ix3 a e n) = x (ix3 (0 : Fin 1) e (0 : Fin 1)) :=
  broadcastTo_apply x h _ _ (fun b => match b with | ⟨0, _⟩ => rfl | ⟨1, _⟩ => rfl | ⟨2, _⟩ => rfl)

/-- [8,128,1] spread over the eight nibbles. -/
theorem spread_cols (x : S8x128x1.Idx → α) (h : S8x128x1.Broadcasts S8x128x8) (g : Fin 8) (c : Fin 128) (e : Fin 8) :
    broadcastTo S8x128x8 x h (ix3 g c e) = x (ix3 g c (0 : Fin 1)) :=
  broadcastTo_apply x h _ _ (fun b => match b with | ⟨0, _⟩ => rfl | ⟨1, _⟩ => rfl | ⟨2, _⟩ => rfl)

/-- [1,1,8] spread over groups and packed columns. -/
theorem spread_shift_cols (x : S1x1x8.Idx → α) (h : S1x1x8.Broadcasts S8x128x8) (g : Fin 8) (c : Fin 128) (e : Fin 8) :
    broadcastTo S8x128x8 x h (ix3 g c e) = x (ix3 (0 : Fin 1) (0 : Fin 1) e) :=
  broadcastTo_apply x h _ _ (fun b => match b with | ⟨0, _⟩ => rfl | ⟨1, _⟩ => rfl | ⟨2, _⟩ => rfl)

/-- [8,1,1024] spread over the 128 rows of a group. -/
theorem spread_group (x : S8x1x1024.Idx → α) (h : S8x1x1024.Broadcasts S8x128x1024) (g : Fin 8) (c : Fin 128) (n : Fin 1024) :
    broadcastTo S8x128x1024 x h (ix3 g c n) = x (ix3 g (0 : Fin 1) n) :=
  broadcastTo_apply x h _ _ (fun b => match b with | ⟨0, _⟩ => rfl | ⟨1, _⟩ => rfl | ⟨2, _⟩ => rfl)

/-- The nibble counter: the [1,8] count along its second axis reads the nibble's number. -/
theorem count_apply (h : S1x8.Iotas .tc 32 [1]) (z : Fin 1) (e : Fin 8) :
    iota .tc S1x8 32 [1] h (ix2 z e) = BitVec.ofNat 32 e.val :=
  iota_single_apply .tc S1x8 32 1 h (ix2 z e)

end Spread

/-- The tile at `(r, n)`. -/
theorem k0_pay1_apply (x0 : Vec F S128x1024 .i32) (x1 : Vec F S8x128 .i32) (x2 : Vec F S8x1024 .f32) (r n : Fin 1024) :
    k0_pay1 x0 x1 x2 (ix2 r n)
      = deq (x0 (ix2 (⟨r.val / 8, by omega⟩ : Fin 128) n)) (x1 (ix2 (⟨r.val / 128, by omega⟩ : Fin 8) (⟨n.val / 8, by omega⟩ : Fin 128)))
          (x2 (ix2 (⟨r.val / 128, by omega⟩ : Fin 8) n)) r.val n.val := by
  -- every arithmetic step acts entry by entry, so the entry at `(r, n)` is the arithmetic of the operands' entries there;
  -- each reshape and each spread then names the one operand entry it reads
  unfold k0_pay1 deq nib
  simp only [truncf, mulf, subf, sitofp, andi, shrsi, addi, muli, broadcast,
    cast_rows8, cast_cols8, cast_rows128, cast_mid128, cast_mid8, cast_last1, cast_8_mid, cast_8_last, cast_1x8,
    spread_rows, spread_shift_rows, spread_cols, spread_shift_cols, spread_group, shapeCast_self]
  -- the two shift amounts: the counter at nibble `r % 8` and at nibble `n % 8`
  rw [count_apply, count_apply]

end Cert.KernelIdeal.Hand

end
-- ==== Proof.KernelIdeal.R0.lean ====
/-
  Region 0 (the dequantisation call) of the idealized kernel: what its four staging buffers hold after the body at each
  grid point, and the body's obligation. Every window of this call is clipped on its column axis at the last column tile
  (11008 columns in tiles of 1024; 1376 packed-zero columns in tiles of 128), so each staging buffer is described only on
  the part inside its array: an input's buffer holds its array's block there and words nothing names elsewhere, and the
  output's buffer holds the dequantised tile, whose entry at a column inside the array reads input entries at columns
  inside their arrays only.
-/
import proofs.«420482_j81174881894900_2_alg».proof.Proof.Gen.KernelIdeal.Launch
import proofs.«420482_j81174881894900_2_alg».proof.Proof.Gen.KernelIdeal.Skeleton
import proofs.«420482_j81174881894900_2_alg».proof.Proof.Gen.KernelIdeal.Points
import proofs.«420482_j81174881894900_2_alg».proof.Proof.KernelIdeal.Pay0
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, its part inside the array, read off the array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The three input buffers after the body: the block inside the array, the zero word past its end. -/
def in0_0 (c : Dev nD) (t : Fin cfg0.N) : Vec F S128x1024 .i32 :=
  win0_0.fill (grid0.coords t) (fun _ => (0#32 : BitVec 32)) (blk0 V c 0 t)
def in0_1 (c : Dev nD) (t : Fin cfg0.N) : Vec F S8x128 .i32 :=
  win0_1.fill (grid0.coords t) (fun _ => (0#32 : BitVec 32)) (blk0 V c 1 t)
def in0_2 (c : Dev nD) (t : Fin cfg0.N) : Vec F S8x1024 .f32 :=
  win0_2.fill (grid0.coords t) (fun _ => Scalar.ofBits .f32 0#32) (blk0 V c 2 t)

/-- The proof data of region 0 on core `c`. -/
def dat0 (c : Dev nD) : Dat τ (Elt F) Unit ℕ (UR sig nD τ) ℕ cfg0 c where
  A w := V c (Pipeline.arrRef spec0 w)
  after w t := match w with
    | ⟨0, _⟩ => in0_0 V c t
    | ⟨1, _⟩ => in0_1 V c t
    | ⟨2, _⟩ => in0_2 V c t
    | ⟨3, _⟩ => k0_pay1 (in0_0 V c t) (in0_1 V c t) (in0_2 V c t)
  Φ _ := Pipeline.ΦA spec0 c
  q _ := fullShare
  owed _ := 0

theorem A_eq0 (c : Dev nD) (w : Fin cfg0.W) : (dat0 V c).A w = V c (Pipeline.arrRef spec0 w) := by
  dsimp only [dat0]

/-! ## The body on whole buffers -/

set_option maxHeartbeats 1000000 in
/-- The body on whole staging memrefs: the three inputs' at any contents, the output's at anything. It loads the inputs'
    whole and stores the dequantised tile of what it read whole: the inputs' are left as they were and the output's
    holds the tile of the inputs' contents. -/
theorem sound_kernel0 (c : Dev nD) (E : Set ℕ) (i : grid0.Coords)
    (arg2 : Memref sig .tc .vmem S128x1024 .i32) (harg2 : arg2.IsWhole)
    (arg3 : Memref sig .tc .vmem S8x128 .i32) (harg3 : arg3.IsWhole)
    (arg4 : Memref sig .tc .vmem S8x1024 .f32) (harg4 : arg4.IsWhole)
    (arg5 : Memref sig .tc .vmem S1024x1024 .bf16) (harg5 : arg5.IsWhole)
    (X0 : Vec F S128x1024 .i32) (X1 : Vec F S8x128 .i32) (X2 : Vec F S8x1024 .f32) (K : PUnit → sProp 𝕄) :
    iprop(owns (c : Thread nD τ) arg2 fullShare X0 ∗ owns (c : Thread nD τ) arg3 fullShare X1 ∗ owns (c : Thread nD τ) arg4 fullShare X2
        ∗ (∃ d, owns (c : Thread nD τ) arg5 fullShare d)
        ∗ (iprop(owns (c : Thread nD τ) arg2 fullShare X0 ∗ owns (c : Thread nD τ) arg3 fullShare X1 ∗ owns (c : Thread nD τ) arg4 fullShare X2
             ∗ owns (c : Thread nD τ) arg5 fullShare (k0_pay1 X0 X1 X2)) -∗ K ⟨⟩))
      ⊢ wp frame (wpE (defs₀ (F := F)) Variants.none c none) E (cc0__dequant_kernel i arg2 harg2 arg3 harg3 arg4 harg4 arg5 harg5) K := by
  have hz : (![0, 0] : Fin 2 → Nat) = fun _ => 0 := funext fun a => by fin_cases a <;> rfl
  simp only [cc0__dequant_kernel_eq_skeleton]; unfold cc0__dequant_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _, View.mem_set_unit_zero hz inb_S1024x1024_S1024x1024_0_0 y⟩),
    View.canon_unit_zero hz]
  simp only [View.readAt_eq_ld]
  rw [View.ld_unit_zero hz, View.ld_unit_zero hz, View.ld_unit_zero hz]

/-! ## What the body finds -/

/-- An input's buffer, fetched at every point: its block on the part inside the array, anything past it. -/
theorem before0_0 (c : Dev nD) (t : Fin cfg0.N) (d) :
    (dat0 V c).before 0 t d = win0_0.fill (grid0.coords t) d (blk0 V c 0 t) := by
  unfold Dat.before; rw [if_pos (fetch0_0 t)]; rfl
theorem before0_1 (c : Dev nD) (t : Fin cfg0.N) (d) :
    (dat0 V c).before 1 t d = win0_1.fill (grid0.coords t) d (blk0 V c 1 t) := by
  unfold Dat.before; rw [if_pos (fetch0_1 t)]; rfl
theorem before0_2 (c : Dev nD) (t : Fin cfg0.N) (d) :
    (dat0 V c).before 2 t d = win0_2.fill (grid0.coords t) d (blk0 V c 2 t) := by
  unfold Dat.before; rw [if_pos (fetch0_2 t)]; rfl
/-- The output's buffer, written back at every point: anything. -/
theorem before0_3 (c : Dev nD) (t : Fin cfg0.N) (d) : (dat0 V c).before 3 t d = d :=
  (dat0 V c).before_out_reset 3 rfl t (by
    by_cases h : t.val = 0
    · exact .inl h
    · exact .inr ⟨h, flush0_3 _⟩) d

theorem after0_0 (c : Dev nD) (t : Fin cfg0.N) : (dat0 V c).after 0 t = in0_0 V c t := by dsimp only [dat0]
theorem after0_1 (c : Dev nD) (t : Fin cfg0.N) : (dat0 V c).after 1 t = in0_1 V c t := by dsimp only [dat0]
theorem after0_2 (c : Dev nD) (t : Fin cfg0.N) : (dat0 V c).after 2 t = in0_2 V c t := by dsimp only [dat0]
theorem after0_3 (c : Dev nD) (t : Fin cfg0.N) :
    (dat0 V c).after 3 t = k0_pay1 (in0_0 V c t) (in0_1 V c t) (in0_2 V c t) := by dsimp only [dat0]

/-! ## The parts inside the arrays -/

/-- At every grid point: no window is cut on its row axis, the two wide inputs are cut on the column axis where the
    output is, and the packed zero points at an eighth of that. -/
theorem xsizes0 : ∀ t : Fin grid0.N,
    win0_0.xsize (grid0.coords t) 0 = 128 ∧ win0_1.xsize (grid0.coords t) 0 = 8 ∧ win0_2.xsize (grid0.coords t) 0 = 8
      ∧ win0_0.xsize (grid0.coords t) 1 = win0_3.xsize (grid0.coords t) 1
      ∧ win0_2.xsize (grid0.coords t) 1 = win0_3.xsize (grid0.coords t) 1
      ∧ win0_1.xsize (grid0.coords t) 1 * 8 = win0_3.xsize (grid0.coords t) 1 := by
  decide +kernel

/-- Two fills of one block agree wherever the block was moved to, whatever filled the rest. -/
theorem fill_eq_of_moved {G : Pipeline.Grid} (w : Window sig G) {α : Type} (i : G.Coords) (d d' : w.block.Idx → α)
    (g : (w.xblock i).Idx → α) {j : w.block.Idx} (h : w.moved i j = true) : w.fill i d g j = w.fill i d' g j := by
  unfold Window.fill; rw [dif_pos h, dif_pos h]

/-- The dequantised tile at a column inside the output array's part of the block reads each input inside ITS array's
    part of its block (the same column of the packed weights and of the scales, the column's eighth of the packed
    zero points), so it is the same whatever fills the inputs' buffers past their arrays' ends. -/
theorem pay_congr_at (t : Fin cfg0.N) (d0 d0' : S128x1024.Idx → Elt F .i32) (b0 : (win0_0.xblock (grid0.coords t)).Idx → Elt F .i32)
    (d1 d1' : S8x128.Idx → Elt F .i32) (b1 : (win0_1.xblock (grid0.coords t)).Idx → Elt F .i32)
    (d2 d2' : S8x1024.Idx → Elt F .f32) (b2 : (win0_2.xblock (grid0.coords t)).Idx → Elt F .f32)
    (r n : Fin 1024) (hn : n.val < win0_3.xsize (grid0.coords t) 1) :
    k0_pay1 (win0_0.fill (grid0.coords t) d0 b0) (win0_1.fill (grid0.coords t) d1 b1) (win0_2.fill (grid0.coords t) d2 b2) (ValueIdx.ix2 r n)
      = k0_pay1 (win0_0.fill (grid0.coords t) d0' b0) (win0_1.fill (grid0.coords t) d1' b1) (win0_2.fill (grid0.coords t) d2' b2) (ValueIdx.ix2 r n) := by
  obtain ⟨h00, h10, h20, h01, h21, h11⟩ := xsizes0 t
  have hr : r.val < 1024 := r.isLt
  rw [k0_pay1_apply, k0_pay1_apply]
  have e0 : win0_0.fill (grid0.coords t) d0 b0 (ValueIdx.ix2 (⟨r.val / 8, by omega⟩ : Fin 128) n)
      = win0_0.fill (grid0.coords t) d0' b0 (ValueIdx.ix2 (⟨r.val / 8, by omega⟩ : Fin 128) n) :=
    fill_eq_of_moved win0_0 _ _ _ _ ((win0_0.moved_iff _ _).mpr fun a => by
      match a with
      | ⟨0, _⟩ => show r.val / 8 < win0_0.xsize (grid0.coords t) 0; omega
      | ⟨1, _⟩ => show n.val < win0_0.xsize (grid0.coords t) 1; omega)
  have e1 : win0_1.fill (grid0.coords t) d1 b1 (ValueIdx.ix2 (⟨r.val / 128, by omega⟩ : Fin 8) (⟨n.val / 8, by omega⟩ : Fin 128))
      = win0_1.fill (grid0.coords t) d1' b1 (ValueIdx.ix2 (⟨r.val / 128, by omega⟩ : Fin 8) (⟨n.val / 8, by omega⟩ : Fin 128)) :=
    fill_eq_of_moved win0_1 _ _ _ _ ((win0_1.moved_iff _ _).mpr fun a => by
      match a with
      | ⟨0, _⟩ => show r.val / 128 < win0_1.xsize (grid0.coords t) 0; omega
      | ⟨1, _⟩ => show n.val / 8 < win0_1.xsize (grid0.coords t) 1; omega)
  have e2 : win0_2.fill (grid0.coords t) d2 b2 (ValueIdx.ix2 (⟨r.val / 128, by omega⟩ : Fin 8) n)
      = win0_2.fill (grid0.coords t) d2' b2 (ValueIdx.ix2 (⟨r.val / 128, by omega⟩ : Fin 8) n) :=
    fill_eq_of_moved win0_2 _ _ _ _ ((win0_2.moved_iff _ _).mpr fun a => by
      match a with
      | ⟨0, _⟩ => show r.val / 128 < win0_2.xsize (grid0.coords t) 0; omega
      | ⟨1, _⟩ => show n.val < win0_2.xsize (grid0.coords t) 1; omega)
  rw [e0, e1, e2]

/-- So the two tiles have one part inside the output's array. -/
theorem cut_pay_congr (t : Fin cfg0.N) (d0 d0' : S128x1024.Idx → Elt F .i32) (b0 : (win0_0.xblock (grid0.coords t)).Idx → Elt F .i32)
    (d1 d1' : S8x128.Idx → Elt F .i32) (b1 : (win0_1.xblock (grid0.coords t)).Idx → Elt F .i32)
    (d2 d2' : S8x1024.Idx → Elt F .f32) (b2 : (win0_2.xblock (grid0.coords t)).Idx → Elt F .f32) :
    win0_3.cut (grid0.coords t) (k0_pay1 (win0_0.fill (grid0.coords t) d0 b0) (win0_1.fill (grid0.coords t) d1 b1) (win0_2.fill (grid0.coords t) d2 b2))
      = win0_3.cut (grid0.coords t) (k0_pay1 (win0_0.fill (grid0.coords t) d0' b0) (win0_1.fill (grid0.coords t) d1' b1) (win0_2.fill (grid0.coords t) d2' b2)) := by
  funext j
  have hj : win0_3.xinj (grid0.coords t) j
      = ValueIdx.ix2 (n0 := 1024) (n1 := 1024) (win0_3.xinj (grid0.coords t) j 0) (win0_3.xinj (grid0.coords t) j 1) :=
    ValueIdx.eq_ix2 (n0 := 1024) (n1 := 1024) _
  show k0_pay1 _ _ _ (win0_3.xinj (grid0.coords t) j) = k0_pay1 _ _ _ (win0_3.xinj (grid0.coords t) j)
  rw [hj]
  exact pay_congr_at t d0 d0' b0 d1 d1' b1 d2 d2' b2 _ _ (j 1).isLt

/-! ## The body's obligation -/

/-- At every point: the inputs' buffers arrive holding their blocks on the parts inside their arrays and anything past
    them, the output's holding anything; the body leaves the inputs' as they were and the output's at the dequantised tile
    of what the inputs' hold. Each loose window is stated on its part inside its array only: there the inputs' hold their
    blocks, as the zero-filled blocks do, and the tile of the buffers is the tile of the zero-filled blocks. -/
theorem body_obligation0 (c : Dev nD) : BodyObligationLoose (dat0 (F := F) V c) (defs₀ (F := F)) Variants.none () Set.univ := fun t => by
  rw [bigSep_W0, bigSep_W0]
  simp only
  rw [show (dat0 V c).Φ t.succ = (dat0 V c).Φ t.castSucc from rfl,
    show (dat0 V c).owesAt () t.succ = (dat0 V c).owesAt () t.castSucc from rfl]
  iintro ⟨HΦ, Ho, ⟨%d0, H0⟩, ⟨%d1, H1⟩, ⟨%d2, H2⟩, ⟨%d3, H3⟩⟩
  rw [before0_0 V c t d0, before0_1 V c t d1, before0_2 V c t d2, before0_3 V c t d3,
    after0_0 V c t, after0_1 V c t, after0_2 V c t, after0_3 V c t]
  iapply (sound_kernel0 (F := F) c Set.univ (grid0.coords t) (win0_0.stage (cfg0.slots t 0)) (hstage0_0 ((cfg0.slots t 0).cast nbuf0_0))
    (win0_1.stage (cfg0.slots t 1)) (hstage0_1 ((cfg0.slots t 1).cast nbuf0_1)) (win0_2.stage (cfg0.slots t 2)) (hstage0_2 ((cfg0.slots t 2).cast nbuf0_2))
    (win0_3.stage (cfg0.slots t 3)) (hstage0_3 ((cfg0.slots t 3).cast nbuf0_3))
    (win0_0.fill (grid0.coords t) d0 (blk0 V c 0 t)) (win0_1.fill (grid0.coords t) d1 (blk0 V c 1 t)) (win0_2.fill (grid0.coords t) d2 (blk0 V c 2 t)) _)
  isplitl [H0]; · iexact H0
  isplitl [H1]; · iexact H1
  isplitl [H2]; · iexact H2
  isplitl [H3]; · iexists d3; iexact H3
  iintro ⟨H0, H1, H2, H3⟩
  isplitl [HΦ]; · iexact HΦ
  isplitl [Ho]; · iexact Ho
  isplitl [H0]
  · iexists d0
    change _ ⊢ owns (c : Thread nD τ) (stage0_0 (cfg0.slots t 0)) fullShare
      (win0_0.fill (grid0.coords t) d0 (win0_0.cut (grid0.coords t) (in0_0 V c t)))
    rw [show win0_0.cut (grid0.coords t) (in0_0 V c t) = blk0 V c 0 t from win0_0.cut_fill _ _ _]
    try iexact H0
  isplitl [H1]
  · iexists d1
    change _ ⊢ owns (c : Thread nD τ) (stage0_1 (cfg0.slots t 1)) fullShare
      (win0_1.fill (grid0.coords t) d1 (win0_1.cut (grid0.coords t) (in0_1 V c t)))
    rw [show win0_1.cut (grid0.coords t) (in0_1 V c t) = blk0 V c 1 t from win0_1.cut_fill _ _ _]
    try iexact H1
  isplitl [H2]
  · iexists d2
    change _ ⊢ owns (c : Thread nD τ) (stage0_2 (cfg0.slots t 2)) fullShare
      (win0_2.fill (grid0.coords t) d2 (win0_2.cut (grid0.coords t) (in0_2 V c t)))
    rw [show win0_2.cut (grid0.coords t) (in0_2 V c t) = blk0 V c 2 t from win0_2.cut_fill _ _ _]
    try iexact H2
  · have hc : win0_3.cut (grid0.coords t) (k0_pay1 (win0_0.fill (grid0.coords t) d0 (blk0 V c 0 t))
          (win0_1.fill (grid0.coords t) d1 (blk0 V c 1 t)) (win0_2.fill (grid0.coords t) d2 (blk0 V c 2 t)))
        = win0_3.cut (grid0.coords t) (k0_pay1 (in0_0 V c t) (in0_1 V c t) (in0_2 V c t)) :=
      cut_pay_congr t d0 (fun _ => (0#32 : BitVec 32)) (blk0 V c 0 t) d1 (fun _ => (0#32 : BitVec 32)) (blk0 V c 1 t)
        d2 (fun _ => Scalar.ofBits .f32 0#32) (blk0 V c 2 t)
    iexists k0_pay1 (win0_0.fill (grid0.coords t) d0 (blk0 V c 0 t)) (win0_1.fill (grid0.coords t) d1 (blk0 V c 1 t))
      (win0_2.fill (grid0.coords t) d2 (blk0 V c 2 t))
    change _ ⊢ owns (c : Thread nD τ) (stage0_3 (cfg0.slots t 3)) fullShare
      (win0_3.fill (grid0.coords t)
        (k0_pay1 (win0_0.fill (grid0.coords t) d0 (blk0 V c 0 t)) (win0_1.fill (grid0.coords t) d1 (blk0 V c 1 t))
          (win0_2.fill (grid0.coords t) d2 (blk0 V c 2 t)))
        (win0_3.cut (grid0.coords t) (α := Elt F .bf16) (k0_pay1 (in0_0 V c t) (in0_1 V c t) (in0_2 V c t))))
    rw [win0_3.fill_congr_cut (grid0.coords t) hc]
    try iexact H3

end Cert.KernelIdeal.Hand

end
-- ==== Proof.KernelIdeal.R1.lean ====
/-
  Region 1 (the matrix-product call) of the idealized kernel: grid (8, 2, 16), the last axis the reduction over the
  sixteen 256-wide slices of the contracted axis. The output block (1024 x 5504) is the same for the sixteen consecutive
  points of one (row tile, column tile) pair and is written back at the last of them: at the first the body resets it to
  zero, at every point it adds the product of the point's two input blocks, at the last it adds the bias row. What the
  output's staging buffer holds after each point is therefore a recursion on the point.
-/
import proofs.«420482_j81174881894900_2_alg».proof.Proof.Gen.KernelIdeal.Launch
import proofs.«420482_j81174881894900_2_alg».proof.Proof.Gen.KernelIdeal.Skeleton
import proofs.«420482_j81174881894900_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One point's body on the output block: reset at the first point of a run of sixteen, add the product of the point's
    blocks, add the bias row at the last point of the run. -/
def step1 (c : Dev nD) (t : Fin cfg1.N) (prev : Vec F S1024x5504 .f32) : Vec F S1024x5504 .f32 :=
  let y1 : Vec F S1024x5504 .f32 := k1_pay2 (if t.val % 16 = 0 then k1_pay1 else prev) (blk1 V c 0 t) (blk1 V c 1 t)
  if t.val % 16 = 15 then k1_pay3 y1 (blk1 V c 2 t) else y1

/-- What the output's staging buffer holds after the body at position `n`. -/
def outsAt1 (c : Dev nD) : (n : ℕ) → n < cfg1.N → Vec F S1024x5504 .f32
  | 0, hn => step1 V c ⟨0, hn⟩ k1_pay1
  | n + 1, hn => step1 V c ⟨n + 1, hn⟩ (outsAt1 c n (Nat.lt_of_succ_lt hn))

theorem outsAt1_succ (c : Dev nD) (n : ℕ) (hn : n + 1 < cfg1.N) :
    outsAt1 V c (n + 1) hn = step1 V c ⟨n + 1, hn⟩ (outsAt1 V c n (Nat.lt_of_succ_lt hn)) := rfl

/-- The proof data of region 1 on core `c`. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => outsAt1 V c t.val t.isLt
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_3 (c : Dev nD) (t : Fin cfg1.N) : (dat1 V c).after 3 t = outsAt1 V c t.val t.isLt := by dsimp only [dat1]

/-- The zero offsets of a whole-buffer access, as a constant function. -/
theorem r1_hz : (![0, 0] : Fin 2 → Nat) = fun _ => 0 := funext fun a => by fin_cases a <;> rfl

/-- The two conditions of the body, from the grid coordinates. -/
abbrev cond1_0 (i : grid1.Coords) : Prop := (Scalar.cmpi .ne (Scalar.extui (Scalar.cmpi .eq (BitVec.ofNat 32 (i 2).val) 0#32)) 0#32) = 1#1
abbrev cond1_1 (i : grid1.Coords) : Prop := (Scalar.cmpi .ne (Scalar.extui (Scalar.cmpi .eq (BitVec.ofNat 32 (i 2).val) 15#32)) 0#32) = 1#1

theorem hcond1_0 : ∀ t : Fin cfg1.N, cond1_0 (grid1.coords t) ↔ t.val % 16 = 0 :=
  (by decide +kernel : ∀ t : Fin grid1.N, cond1_0 (grid1.coords t) ↔ t.val % 16 = 0)
theorem hcond1_1 : ∀ t : Fin cfg1.N, cond1_1 (grid1.coords t) ↔ t.val % 16 = 15 :=
  (by decide +kernel : ∀ t : Fin grid1.N, cond1_1 (grid1.coords t) ↔ t.val % 16 = 15)

/-- A store through the whole-shape rectangle at zero offsets, last, covers the buffer whatever came before it. -/
theorem r1_cover {S : Shape} {e : EltTy} {off : Fin S.rank → Nat} (h : off = fun _ => 0) (inb : ∀ a, off a + S.size a ≤ S.size a)
    (w : (Rect.unit off S.size inb).shape.Idx → Elt F e) (L : List (View.Piece (Elt F) S e)) (y : S.Idx) :
    ∃ p ∈ ((⟨Rect.unit off S.size inb, w⟩ : View.Piece (Elt F) S e) :: L), y ∈ p.1.set :=
  ⟨⟨Rect.unit off S.size inb, w⟩, List.mem_cons.mpr (Or.inl rfl), View.mem_set_unit_zero h inb y⟩

/-! ## The body on any whole staging memrefs, one triple per control case -/

set_option maxHeartbeats 1000000 in
/-- A middle point of a run (neither condition holds): the output's buffer at `Y` ends at `Y` plus the product of the
    two input blocks; the inputs are left as they were. -/
theorem kernel1_B (c : Dev nD) (E : Set ℕ) (i : grid1.Coords)
    (a3 : Memref sig .tc .vmem S1024x256 .bf16) (h3 : a3.IsWhole) (a4 : Memref sig .tc .vmem S256x5504 .bf16) (h4 : a4.IsWhole)
    (a5 : Memref sig .tc .vmem S1x5504 .f32) (h5 : a5.IsWhole) (a6 : Memref sig .tc .vmem S1024x5504 .f32) (h6 : a6.IsWhole)
    (hc0 : ¬cond1_0 i) (hc1 : ¬cond1_1 i)
    (X0 : Vec F S1024x256 .bf16) (X1 : Vec F S256x5504 .bf16) (X2 : Vec F S1x5504 .f32) (Y : Vec F S1024x5504 .f32) (K : PUnit → sProp 𝕄) :
    iprop(owns (c : Thread nD τ) a3 fullShare X0 ∗ owns (c : Thread nD τ) a4 fullShare X1 ∗ owns (c : Thread nD τ) a5 fullShare X2
        ∗ owns (c : Thread nD τ) a6 fullShare Y
        ∗ (iprop(owns (c : Thread nD τ) a3 fullShare X0 ∗ owns (c : Thread nD τ) a4 fullShare X1 ∗ owns (c : Thread nD τ) a5 fullShare X2
            ∗ owns (c : Thread nD τ) a6 fullShare (k1_pay2 Y X0 X1)) -∗ K ⟨⟩))
      ⊢ wp frame (wpE (defs₀ (F := F)) Variants.none c none) E (cc1__matmul_kernel i a3 h3 a4 h4 a5 h5 a6 h6) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, Hk⟩
  obtain rfl := h3.eq_unread hf0; obtain rfl := h4.eq_unread hf1; obtain rfl := h5.eq_unread hf2; obtain rfl := h6.eq_unread hf3
  sl_exec (disch := first | exact hc0 | exact hc1)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  iexists _; isplitr
  swap; · iexact H3
  ipureintro
  rw [View.read_writes_eq_canon _ _ _ (r1_cover r1_hz _ _ _),
    View.canon_unit_zero r1_hz]
  simp only [View.readAt_eq_ld, h3.read_unread, h4.read_unread, h5.read_unread, h6.read_unread, View.ld_unit_zero (S := S1024x5504) r1_hz,
    View.ld_unit_zero (S := S1024x256) r1_hz, View.ld_unit_zero (S := S256x5504) r1_hz, View.ld_unit_zero (S := S1x5504) r1_hz]

set_option maxHeartbeats 1000000 in
/-- The first point of a run (the first condition holds, the second does not): whatever the output's buffer held, it is
    reset to zero and ends at zero plus the product of the two input blocks. -/
theorem kernel1_A (c : Dev nD) (E : Set ℕ) (i : grid1.Coords)
    (a3 : Memref sig .tc .vmem S1024x256 .bf16) (h3 : a3.IsWhole) (a4 : Memref sig .tc .vmem S256x5504 .bf16) (h4 : a4.IsWhole)
    (a5 : Memref sig .tc .vmem S1x5504 .f32) (h5 : a5.IsWhole) (a6 : Memref sig .tc .vmem S1024x5504 .f32) (h6 : a6.IsWhole)
    (hc0 : cond1_0 i) (hc1 : ¬cond1_1 i)
    (X0 : Vec F S1024x256 .bf16) (X1 : Vec F S256x5504 .bf16) (X2 : Vec F S1x5504 .f32) (K : PUnit → sProp 𝕄) :
    iprop(owns (c : Thread nD τ) a3 fullShare X0 ∗ owns (c : Thread nD τ) a4 fullShare X1 ∗ owns (c : Thread nD τ) a5 fullShare X2
        ∗ (∃ Y, owns (c : Thread nD τ) a6 fullShare Y)
        ∗ (iprop(owns (c : Thread nD τ) a3 fullShare X0 ∗ owns (c : Thread nD τ) a4 fullShare X1 ∗ owns (c : Thread nD τ) a5 fullShare X2
            ∗ owns (c : Thread nD τ) a6 fullShare (k1_pay2 k1_pay1 X0 X1)) -∗ K ⟨⟩))
      ⊢ wp frame (wpE (defs₀ (F := F)) Variants.none c none) E (cc1__matmul_kernel i a3 h3 a4 h4 a5 h5 a6 h6) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%Y, %f3, -, H3⟩, Hk⟩
  obtain rfl := h3.eq_unread hf0; obtain rfl := h4.eq_unread hf1; obtain rfl := h5.eq_unread hf2
  sl_exec (disch := first | exact hc0 | exact hc1)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  iexists _; isplitr
  swap; · iexact H3
  ipureintro
  sl_unfold_words
  rw [View.read_writes_eq_canon _ _ _ (r1_cover r1_hz _ _ _),
    View.canon_cons_unit_zero (S := S1024x5504) r1_hz, View.readCov_unit_zero (S := S1024x5504) _ r1_hz]
  simp only [View.readAt_eq_ld, h3.read_unread, h4.read_unread, h5.read_unread, h6.read_unread, View.ld_unit_zero (S := S1024x5504) r1_hz,
    View.ld_unit_zero (S := S1024x256) r1_hz, View.ld_unit_zero (S := S256x5504) r1_hz, View.ld_unit_zero (S := S1x5504) r1_hz]

set_option maxHeartbeats 1000000 in
/-- The last point of a run (the second condition holds, the first does not): the output's buffer at `Y` ends at `Y` plus
    the product, plus the bias row broadcast over the rows. -/
theorem kernel1_C (c : Dev nD) (E : Set ℕ) (i : grid1.Coords)
    (a3 : Memref sig .tc .vmem S1024x256 .bf16) (h3 : a3.IsWhole) (a4 : Memref sig .tc .vmem S256x5504 .bf16) (h4 : a4.IsWhole)
    (a5 : Memref sig .tc .vmem S1x5504 .f32) (h5 : a5.IsWhole) (a6 : Memref sig .tc .vmem S1024x5504 .f32) (h6 : a6.IsWhole)
    (hc0 : ¬cond1_0 i) (hc1 : cond1_1 i)
    (X0 : Vec F S1024x256 .bf16) (X1 : Vec F S256x5504 .bf16) (X2 : Vec F S1x5504 .f32) (Y : Vec F S1024x5504 .f32) (K : PUnit → sProp 𝕄) :
    iprop(owns (c : Thread nD τ) a3 fullShare X0 ∗ owns (c : Thread nD τ) a4 fullShare X1 ∗ owns (c : Thread nD τ) a5 fullShare X2
        ∗ owns (c : Thread nD τ) a6 fullShare Y
        ∗ (iprop(owns (c : Thread nD τ) a3 fullShare X0 ∗ owns (c : Thread nD τ) a4 fullShare X1 ∗ owns (c : Thread nD τ) a5 fullShare X2
            ∗ owns (c : Thread nD τ) a6 fullShare (k1_pay3 (k1_pay2 Y X0 X1) X2)) -∗ K ⟨⟩))
      ⊢ wp frame (wpE (defs₀ (F := F)) Variants.none c none) E (cc1__matmul_kernel i a3 h3 a4 h4 a5 h5 a6 h6) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, Hk⟩
  obtain rfl := h3.eq_unread hf0; obtain rfl := h4.eq_unread hf1; obtain rfl := h5.eq_unread hf2; obtain rfl := h6.eq_unread hf3
  sl_exec (disch := first | exact hc0 | exact hc1)
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  iexists _; isplitr
  swap; · iexact H3
  ipureintro
  sl_unfold_words
  rw [View.read_writes_eq_canon _ _ _ (r1_cover r1_hz _ _ _),
    View.canon_cons_unit_zero (S := S1024x5504) r1_hz, View.readCov_unit_zero (S := S1024x5504) _ r1_hz]
  simp only [View.readAt_eq_ld, h3.read_unread, h4.read_unread, h5.read_unread, h6.read_unread, View.ld_unit_zero (S := S1024x5504) r1_hz,
    View.ld_unit_zero (S := S1024x256) r1_hz, View.ld_unit_zero (S := S256x5504) r1_hz, View.ld_unit_zero (S := S1x5504) r1_hz]

/-! ## What the buffers hold when the body is called -/

theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]

/-- Each input's current buffer holds its block at every point, fetched there or not: unfetched, the block index has not
    moved since the point before. -/
theorem before1_0 (c : Dev nD) (t : Fin cfg1.N) (d) : (dat1 V c).before 0 t d = blk1 V c 0 t :=
  ((dat1 V c).before_in_eq_fetched 0 rfl (fun _ => rfl) (fun _ _ _ => rfl)
      (fun t => by rw [after1_0]; unfold Dat.blockOf blk1; rw [A_eq1]; try rfl) t d).trans
    (by unfold Dat.fetched Dat.blockOf blk1; rw [A_eq1]; try rfl)
theorem before1_1 (c : Dev nD) (t : Fin cfg1.N) (d) : (dat1 V c).before 1 t d = blk1 V c 1 t :=
  ((dat1 V c).before_in_eq_fetched 1 rfl (fun _ => rfl) (fun _ _ _ => rfl)
      (fun t => by rw [after1_1]; unfold Dat.blockOf blk1; rw [A_eq1]; try rfl) t d).trans
    (by unfold Dat.fetched Dat.blockOf blk1; rw [A_eq1]; try rfl)
theorem before1_2 (c : Dev nD) (t : Fin cfg1.N) (d) : (dat1 V c).before 2 t d = blk1 V c 2 t :=
  ((dat1 V c).before_in_eq_fetched 2 rfl (fun _ => rfl) (fun _ _ _ => rfl)
      (fun t => by rw [after1_2]; unfold Dat.blockOf blk1; rw [A_eq1]; try rfl) t d).trans
    (by unfold Dat.fetched Dat.blockOf blk1; rw [A_eq1]; try rfl)

/-- At a point that is not the first of its run of sixteen the output's buffer holds what the body left at the point
    before: that point is not the last of a run, so the buffer was not written back between. -/
theorem before1_3 (c : Dev nD) (t : Fin cfg1.N) (h0 : ¬t.val % 16 = 0) (d) :
    (dat1 V c).before 3 t d = outsAt1 V c (t.val - 1) (Nat.lt_of_le_of_lt (Nat.sub_le _ _) t.isLt) := by
  have hN : t.val < 256 := lt_of_lt_of_eq t.isLt (show cfg1.N = 256 from N_1)
  rw [Dat.before_out_kept _ 3 rfl t (by omega) (Bool.eq_false_iff.mpr fun h => by have := (flush1_3 _).mp h; dsimp only at this; omega)
    (fun _ => rfl) (fun _ _ => rfl)]
  dsimp only [dat1]

/-! ## One point's step, case by case -/

theorem step1_A (c : Dev nD) (t : Fin cfg1.N) (prev : Vec F S1024x5504 .f32) (h0 : t.val % 16 = 0) (h15 : ¬t.val % 16 = 15) :
    step1 V c t prev = k1_pay2 k1_pay1 (blk1 V c 0 t) (blk1 V c 1 t) := by
  unfold step1; dsimp only; rw [if_neg h15, if_pos h0]
theorem step1_B (c : Dev nD) (t : Fin cfg1.N) (prev : Vec F S1024x5504 .f32) (h0 : ¬t.val % 16 = 0) (h15 : ¬t.val % 16 = 15) :
    step1 V c t prev = k1_pay2 prev (blk1 V c 0 t) (blk1 V c 1 t) := by
  unfold step1; dsimp only; rw [if_neg h15, if_neg h0]
theorem step1_C (c : Dev nD) (t : Fin cfg1.N) (prev : Vec F S1024x5504 .f32) (h0 : ¬t.val % 16 = 0) (h15 : t.val % 16 = 15) :
    step1 V c t prev = k1_pay3 (k1_pay2 prev (blk1 V c 0 t) (blk1 V c 1 t)) (blk1 V c 2 t) := by
  unfold step1; dsimp only; rw [if_pos h15, if_neg h0]

/-- At the first point of a run the recursion does not read what came before. -/
theorem outsAt1_first (c : Dev nD) (t : Fin cfg1.N) (h0 : t.val % 16 = 0) (h15 : ¬t.val % 16 = 15) :
    outsAt1 V c t.val t.isLt = k1_pay2 k1_pay1 (blk1 V c 0 t) (blk1 V c 1 t) := by
  obtain ⟨n, hn⟩ := t
  cases n with
  | zero => exact step1_A V c ⟨0, hn⟩ _ h0 h15
  | succ n => exact (outsAt1_succ V c n hn).trans (step1_A V c ⟨n + 1, hn⟩ _ h0 h15)

/-- At any other point it is the step on what the point before left. -/
theorem outsAt1_later (c : Dev nD) (t : Fin cfg1.N) (h0 : ¬t.val % 16 = 0) :
    outsAt1 V c t.val t.isLt = step1 V c t (outsAt1 V c (t.val - 1) (Nat.lt_of_le_of_lt (Nat.sub_le _ _) t.isLt)) := by
  obtain ⟨n, hn⟩ := t
  cases n with
  | zero => exact absurd (Nat.zero_mod _) h0
  | succ n => exact outsAt1_succ V c n hn

/-! ## The body obligation, at a generic point -/

/-- Each window's current staging memref at point `t`, as the pipeline passes it, and its wholeness. -/
abbrev ms1_0 (t : Fin cfg1.N) : Memref sig .tc .vmem S1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x5504 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x5504 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x5504 .f32 := win1_3.stage (cfg1.slots t 3)
abbrev hs1_3 (t : Fin cfg1.N) : (ms1_3 t).IsWhole := hstage1_3 ((cfg1.slots t 3).cast nbuf1_3)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

set_option maxHeartbeats 1000000 in
/-- The body at any point: the inputs' buffers hold their blocks; the point's place in its run of sixteen says which of
    the three control cases it is in; past the first point of a run the output's buffer holds what the point before
    left; the invariant passes through unread and nothing is owed. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  have hN : t.val < 256 := lt_of_lt_of_eq t.isLt (show cfg1.N = 256 from N_1)
  by_cases h0 : t.val % 16 = 0
  · have h15 : ¬t.val % 16 = 15 := by omega
    rw [outsAt1_first V c t h0 h15]
    iintro ⟨HΦ, Ho, ⟨%d0, H0⟩, ⟨%d1, H1⟩, ⟨%d2, H2⟩, ⟨%d3, H3⟩⟩
    iapply (kernel1_A c Set.univ (grid1.coords t) (ms1_0 t) (hs1_0 t) (ms1_1 t) (hs1_1 t) (ms1_2 t) (hs1_2 t) (ms1_3 t) (hs1_3 t)
      ((hcond1_0 t).mpr h0) (fun h => h15 ((hcond1_1 t).mp h)) (blk1 V c 0 t) (blk1 V c 1 t) (blk1 V c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · simp only [before1_3 V c t h0]
    rw [outsAt1_later V c t h0]
    by_cases h15 : t.val % 16 = 15
    · rw [step1_C V c t _ h0 h15]
      iintro ⟨HΦ, Ho, ⟨%d0, H0⟩, ⟨%d1, H1⟩, ⟨%d2, H2⟩, ⟨%d3, H3⟩⟩
      iapply (kernel1_C c Set.univ (grid1.coords t) (ms1_0 t) (hs1_0 t) (ms1_1 t) (hs1_1 t) (ms1_2 t) (hs1_2 t) (ms1_3 t) (hs1_3 t)
        (fun h => h0 ((hcond1_0 t).mp h)) ((hcond1_1 t).mpr h15) (blk1 V c 0 t) (blk1 V c 1 t) (blk1 V c 2 t)
        (outsAt1 V c (t.val - 1) (Nat.lt_of_le_of_lt (Nat.sub_le _ _) t.isLt)) _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
    · rw [step1_B V c t _ h0 h15]
      iintro ⟨HΦ, Ho, ⟨%d0, H0⟩, ⟨%d1, H1⟩, ⟨%d2, H2⟩, ⟨%d3, H3⟩⟩
      iapply (kernel1_B c Set.univ (grid1.coords t) (ms1_0 t) (hs1_0 t) (ms1_1 t) (hs1_1 t) (ms1_2 t) (hs1_2 t) (ms1_3 t) (hs1_3 t)
        (fun h => h0 ((hcond1_0 t).mp h)) (fun h => h15 ((hcond1_1 t).mp h)) (blk1 V c 0 t) (blk1 V c 1 t) (blk1 V c 2 t)
        (outsAt1 V c (t.val - 1) (Nat.lt_of_le_of_lt (Nat.sub_le _ _) t.isLt)) _)
      isplitl [H0]; · iexact H0
      isplitl [H1]; · iexact H1
      isplitl [H2]; · iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Run.lean ====
/-
  The whole run of the idealized kernel's @main: region 0 (dequantisation), three host operations (the activations
  re-laid as a matrix and narrowed, the bias re-laid as a row), region 1 (the matrix product), one host operation (the
  result re-laid). The contents of every unscoped buffer at each boundary between two items are a fold from the launch
  memory: a host stretch applies its operations; a region leaves each of its windows' arrays at what its write-backs
  fold to and every other buffer as it found it. Every weakly fair execution terminates with every unscoped buffer at
  the last boundary's contents; read at an argument that is its launch contents, since no item writes an argument.
-/
import proofs.«420482_j81174881894900_2_alg».proof.Proof.KernelIdeal.R0
import proofs.«420482_j81174881894900_2_alg».proof.Proof.KernelIdeal.R1
import proofs.«420482_j81174881894900_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (region 0's entry). -/
abbrev W0 : Dev nD → Valuation τ sig (Elt F) := fun c b => m (c, b)
/-- The same read at the TensorCore's references: what region 0's proof data take. -/
abbrev VA : (c : Dev nD) → (b : Ref sig .tc) → Buf (Elt F) ((c : Thread nD τ).loc b) := fun c b => W0 m c b
/-- At region 0's exit: its arrays at what the pipeline leaves, every other buffer as entered. -/
def W1 (c : Dev nD) : Valuation τ sig (Elt F) :=
  Pipeline.withArrays spec0 c (W0 m c) fun w => (dat0 (VA m) c).arrAt w cfg0.N
theorem W1_arr (c : Dev nD) (w : Fin cfg0.W) :
    W1 m c (Proc.devRef .tc (Pipeline.arrRef spec0 w)) = (dat0 (VA m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev VA' : (c : Dev nD) → (b : Ref sig .tc) → Buf (Elt F) ((c : Thread nD τ).loc b) := fun c b => W1 m c b
theorem hF0 (c : Dev nD) (w : Fin cfg0.W) : (dat0 (VA m) c).arrAt w cfg0.N = VA' m c (Pipeline.arrRef spec0 w) :=
  (W1_arr m c w).symm
theorem hrest0 (c : Dev nD) : ∀ b, b ∉ Finset.univ.image (Pipeline.arrRef spec0) → VA' m c b = VA m c b :=
  fun b hb => W1_of_ne m c b fun w e => hb (Finset.mem_image.mpr ⟨w, Finset.mem_univ _, e⟩)

/-- After the three host operations (region 1's entry). -/
abbrev W2 : Dev nD → Valuation τ sig (Elt F) := fun c => StableHlo.after hostOps1 (W1 m c)
abbrev VB : (c : Dev nD) → (b : Ref sig .tc) → Buf (Elt F) ((c : Thread nD τ).loc b) := fun c b => W2 m c b
/-- At region 1's exit. -/
def W3 (c : Dev nD) : Valuation τ sig (Elt F) :=
  Pipeline.withArrays spec1 c (W2 m c) fun w => (dat1 (VB m) c).arrAt w cfg1.N
theorem W3_arr (c : Dev nD) (w : Fin cfg1.W) :
    W3 m c (Proc.devRef .tc (Pipeline.arrRef spec1 w)) = (dat1 (VB m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev VB' : (c : Dev nD) → (b : Ref sig .tc) → Buf (Elt F) ((c : Thread nD τ).loc b) := fun c b => W3 m c b
theorem hF1 (c : Dev nD) (w : Fin cfg1.W) : (dat1 (VB m) c).arrAt w cfg1.N = VB' m c (Pipeline.arrRef spec1 w) :=
  (W3_arr m c w).symm
theorem hrest1 (c : Dev nD) : ∀ b, b ∉ Finset.univ.image (Pipeline.arrRef spec1) → VB' m c b = VB m c b :=
  fun b hb => W3_of_ne m c b fun w e => hb (Finset.mem_image.mpr ⟨w, Finset.mem_univ _, e⟩)

/-- After the last host operation: the final contents. -/
abbrev W4 : Dev nD → Valuation τ sig (Elt F) := fun c => StableHlo.after hostOps2 (W3 m c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VA m) c
  | ⟨1, _⟩ => fun c => dat1 (VB m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- Region 0: entered from every unscoped buffer at `W0`, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := body_obligation0 (VA m) c
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (VA' m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W2`, left at `W3`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (VB' m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      change iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.KernelIdeal.Hand

end
-- ==== Proof.KernelIdeal.Frame.lean ====
/-
  The frame of the idealized kernel: no item of @main writes an argument array. A host stretch writes only its own
  results; region 0 reads three of the arguments through input windows, whose arrays the write-backs never touch, and
  bypasses the other two; region 1's windows are over intermediate buffers. So the last boundary's contents at each
  argument walk back to the launch memory.
-/
import proofs.«420482_j81174881894900_2_alg».proof.Proof.KernelIdeal.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide)
    _ = W2 m c (Proc.devRef .tc main_arg0) := W3_of_ne m c main_arg0 (by decide)
    _ = W1 m c (Proc.devRef .tc main_arg0) := StableHlo.after_of_writes_sub hostOps1 _ hostOps1_writes (by decide)
    _ = W0 m c (Proc.devRef .tc main_arg0) := W1_of_ne m c main_arg0 (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide)
    _ = W2 m c (Proc.devRef .tc main_arg1) := W3_of_ne m c main_arg1 (by decide)
    _ = W1 m c (Proc.devRef .tc main_arg1) := StableHlo.after_of_writes_sub hostOps1 _ hostOps1_writes (by decide)
    _ = W0 m c (Proc.devRef .tc main_arg1) := (W1_arr m c 0).trans (((dat0 (VA m) c).arrAt_in 0 rfl _).trans (A_eq0 (VA m) c 0))
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (by decide)
    _ = W2 m c (Proc.devRef .tc main_arg2) := W3_of_ne m c main_arg2 (by decide)
    _ = W1 m c (Proc.devRef .tc main_arg2) := StableHlo.after_of_writes_sub hostOps1 _ hostOps1_writes (by decide)
    _ = W0 m c (Proc.devRef .tc main_arg2) := (W1_arr m c 1).trans (((dat0 (VA m) c).arrAt_in 1 rfl _).trans (A_eq0 (VA m) c 1))
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_writes_sub hostOps2 _ hostOps2_writes (by decide)
    _ = W2 m c (Proc.devRef .tc main_arg3) := W3_of_ne m c main_arg3 (by decide)
    _ = W1 m c (Proc.devRef .tc main_arg3) := StableHlo.after_of_writes_sub hostOps1 _ hostOps1_writes (by decide)
    _ = W0 m c (Proc.devRef .tc main_arg3) := (W1_arr m c 2).trans (((dat0 (VA m) c).arrAt_in 2 rfl _).trans (A_eq0 (VA m) c 2))
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := StableHlo.after_of_writes_sub hostOps2 _ hostOps2_writes (by decide)
    _ = W2 m c (Proc.devRef .tc main_arg4) := W3_of_ne m c main_arg4 (by decide)
    _ = W1 m c (Proc.devRef .tc main_arg4) := StableHlo.after_of_writes_sub hostOps1 _ hostOps1_writes (by decide)
    _ = W0 m c (Proc.devRef .tc main_arg4) := W1_of_ne m c main_arg4 (by decide)
    _ = m ((c : Thread nD τ).loc main_arg4) := rfl

/-- Every weakly fair execution of @main terminates, nothing faulting, with the five argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_main m ρ)

end Cert.KernelIdeal.Hand

end
-- ==== Proof.Spec.lean ====
/-
  What both programs compute, as one function of the five argument arrays.
  The dequantised weight matrix: W[k, n] = scale[k / 128, n] * (nibble(qw[k / 8, n], k % 8) - nibble(qz[k / 128, n / 8], n % 8)),
  nibble(q, e) = (q >> 4e) & 15 with the arithmetic shift, each nibble read as a signed integer. The result:
  out[a, s, n] = (sum over k < 4096 of x[a, s, k] * W[k, n]) + bias[n]. On the extended reals addition is commutative and
  associative, so a sum over 4096 terms is the sum of its sixteen consecutive slices of 256: no finiteness is used.
-/
import Idealize.ShloMosaic.PureOps.Ideal
import Idealize.ShloMosaic.Lib.ValueIdx
import Mathlib.Algebra.BigOperators.Fin
import Mathlib.Logic.Equiv.Fin.Basic
import Mathlib.Data.Fintype.BigOperators

noncomputable section

namespace Cert.Spec

open Idealize.ShloMosaic Idealize.ShloMosaic.ValueIdx

/-- Nibble `e` of the word `q`: `(q >> 4e) & 15`, the shift arithmetic, its amount the word `0 + 4 * e`. -/
def nib (q : BitVec 32) (e : ℕ) : BitVec 32 :=
  IntOp.andi (IntOp.shrsi .vector q (IntOp.addi 0#32 (IntOp.muli 4#32 (BitVec.ofNat 32 e)))) 15#32

/-- A nibble as an extended real: the signed integer it denotes. -/
def nibR (q : BitVec 32) (e : ℕ) : EReal := FloatOps.sitofp (F := Ideal) .f32 (nib q e)

/-- The dequantised weight at row `k`, column `n`. -/
def Wspec (qw : (⟨2, ![512, 11008]⟩ : Shape).Idx → BitVec 32) (qz : (⟨2, ![32, 1376]⟩ : Shape).Idx → BitVec 32)
    (sc : (⟨2, ![32, 11008]⟩ : Shape).Idx → EReal) (k : Fin 4096) (n : Fin 11008) : EReal :=
  sc (ix2 (⟨k.val / 128, by omega⟩ : Fin 32) n)
    * (nibR (qw (ix2 (⟨k.val / 8, by omega⟩ : Fin 512) n)) (k.val % 8)
        - nibR (qz (ix2 (⟨k.val / 128, by omega⟩ : Fin 32) (⟨n.val / 8, by omega⟩ : Fin 1376))) (n.val % 8))

/-- The product with the activations flattened to 8192 rows, plus the bias row. -/
def Mspec (X : (⟨2, ![8192, 4096]⟩ : Shape).Idx → EReal) (Wd : Fin 4096 → Fin 11008 → EReal)
    (B : Fin 11008 → EReal) (r : Fin 8192) (n : Fin 11008) : EReal :=
  (∑ k : Fin 4096, X (ix2 r k) * Wd k n) + B n

/-- The result, at `[a, s, n]`. -/
def Gspec (x : (⟨3, ![4, 2048, 4096]⟩ : Shape).Idx → EReal)
    (qw : (⟨2, ![512, 11008]⟩ : Shape).Idx → BitVec 32) (qz : (⟨2, ![32, 1376]⟩ : Shape).Idx → BitVec 32)
    (sc : (⟨2, ![32, 11008]⟩ : Shape).Idx → EReal) (b : (⟨1, ![11008]⟩ : Shape).Idx → EReal) :
    (⟨3, ![4, 2048, 11008]⟩ : Shape).Idx → EReal :=
  fun i => (∑ k : Fin 4096, x (ix3 (i 0) (i 1) k) * Wspec qw qz sc k (i 2)) + b (ix1 (i 2))

/-- A sum over 4096 consecutive naturals is the sum of its sixteen consecutive slices of 256. -/
theorem sum_slices {M : Type*} [AddCommMonoid M] (f : ℕ → M) :
    ∑ s ∈ Finset.range 16, ∑ j : Fin 256, f (256 * s + j.val) = ∑ k : Fin 4096, f k.val := by
  rw [← Fin.sum_univ_eq_sum_range (fun s => ∑ j : Fin 256, f (256 * s + j.val)) 16,
    ← Fintype.sum_prod_type' (fun (s : Fin 16) (j : Fin 256) => f (256 * s.val + j.val))]
  have h := (finProdFinEquiv (m := 16) (n := 256)).sum_comp (fun k : Fin (16 * 256) => f k.val)
  refine Eq.trans (Fintype.sum_congr _ _ fun p => ?_) h
  show f (256 * p.1.val + p.2.val) = f (p.2.val + 256 * p.1.val)
  rw [Nat.add_comm]

end Cert.Spec

end
-- ==== Proof.KernelIdeal.DeqValue.lean ====
/-
  What region 0 leaves in the weight buffer, at the ideal instance: the dequantised matrix `Spec.Wspec` of the three
  quantisation arrays. Point (i, j) of the 4 x 11 grid writes back the part inside the array of its 1024 x 1024 tile — rows
  1024 i ..., columns 1024 j ... (the last column tile only 768 wide) —, and that part is the same tile of `Wspec`; the
  44 tiles cover the 4096 x 11008 array.
-/
import proofs.«420482_j81174881894900_2_alg».proof.Proof.KernelIdeal.R0
import proofs.«420482_j81174881894900_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx

variable (V : (c : Dev nD) → (b : Ref sig .tc) → Buf (Elt Ideal) ((c : Thread nD τ).loc b))

/-! ## The grid's points, decided once -/

/-- At every point the three input windows sit at the output window's block index; rows are never cut, and the
    column cut — none before the last column tile, 768 of 1024 at it — is the same on every window (an eighth of it on
    the packed zero points). -/
theorem deq_grid_facts : ∀ t : Fin cfg0.N,
    win0_0.index t (0 : Fin 2) = win0_3.index t (0 : Fin 2) ∧ win0_0.index t (1 : Fin 2) = win0_3.index t (1 : Fin 2)
    ∧ win0_1.index t (0 : Fin 2) = win0_3.index t (0 : Fin 2) ∧ win0_1.index t (1 : Fin 2) = win0_3.index t (1 : Fin 2)
    ∧ win0_2.index t (0 : Fin 2) = win0_3.index t (0 : Fin 2) ∧ win0_2.index t (1 : Fin 2) = win0_3.index t (1 : Fin 2)
    ∧ win0_3.index t (0 : Fin 2) ≤ 3
    ∧ win0_0.xsize (grid0.coords t) (0 : Fin 2) = 128
    ∧ win0_0.xsize (grid0.coords t) (1 : Fin 2) = win0_3.xsize (grid0.coords t) (1 : Fin 2)
    ∧ win0_1.xsize (grid0.coords t) (0 : Fin 2) = 8
    ∧ win0_1.xsize (grid0.coords t) (1 : Fin 2) * 8 = win0_3.xsize (grid0.coords t) (1 : Fin 2)
    ∧ win0_2.xsize (grid0.coords t) (0 : Fin 2) = 8
    ∧ win0_2.xsize (grid0.coords t) (1 : Fin 2) = win0_3.xsize (grid0.coords t) (1 : Fin 2)
    ∧ win0_3.xsize (grid0.coords t) (0 : Fin 2) = 1024
    ∧ ((win0_3.index t (1 : Fin 2) < 10 ∧ win0_3.xsize (grid0.coords t) (1 : Fin 2) = 1024)
        ∨ (win0_3.index t (1 : Fin 2) = 10 ∧ win0_3.xsize (grid0.coords t) (1 : Fin 2) = 768)) :=
  (by decide +kernel : ∀ t : Fin grid0.N, _)

/-- Every tile of the 4 x 11 tiling is some point's. -/
theorem deq_tile_onto : ∀ (q0 : Fin 4) (q1 : Fin 11), ∃ t : Fin cfg0.N, win0_3.index t = ![q0.val, q1.val] :=
  (by decide +kernel : ∀ (q0 : Fin 4) (q1 : Fin 11), ∃ t : Fin grid0.N, win0_3.index t = ![q0.val, q1.val])

/-! ## The three input buffers read at an entry inside the array -/

/-- The packed-weight buffer at `(a, b)`, column `b` inside the array: the array's entry under it. -/
theorem deq_in0_0_apply (c : Dev nD) (t : Fin cfg0.N) (a : Fin 128) (b : Fin 1024)
    (hb : b.val < win0_0.xsize (grid0.coords t) (1 : Fin 2)) (k : S512x11008.Idx)
    (h0 : (k 0).val = win0_0.index t (0 : Fin 2) * 128 + a.val) (h1 : (k 1).val = win0_0.index t (1 : Fin 2) * 1024 + b.val) :
    in0_0 V c t (ix2 a b) = V c main_arg1 k := by
  have hx0 : win0_0.xsize (grid0.coords t) (0 : Fin 2) = 128 := (deq_grid_facts t).2.2.2.2.2.2.2.1
  have hm : win0_0.moved (grid0.coords t) (ix2 a b) = true :=
    (win0_0.moved_iff _ _).mpr fun d => match d with
      | ⟨0, _⟩ => by show a.val < win0_0.xsize (grid0.coords t) (0 : Fin 2); rw [hx0]; exact a.isLt
      | ⟨1, _⟩ => hb
  unfold in0_0 Window.fill
  rw [dif_pos hm]
  show V c main_arg1 (((cfg0.win 0).blk t).view.emb _) = V c main_arg1 k
  refine congrArg _ (funext fun d => Fin.ext ?_)
  match d with
  | ⟨0, _⟩ => show win0_0.index t (0 : Fin 2) * 128 + 1 * a.val = (k 0).val; omega
  | ⟨1, _⟩ => show win0_0.index t (1 : Fin 2) * 1024 + 1 * b.val = (k 1).val; omega

/-- The packed-zero-point buffer at `(a, b)`, packed column `b` inside the array. -/
theorem deq_in0_1_apply (c : Dev nD) (t : Fin cfg0.N) (a : Fin 8) (b : Fin 128)
    (hb : b.val < win0_1.xsize (grid0.coords t) (1 : Fin 2)) (k : S32x1376.Idx)
    (h0 : (k 0).val = win0_1.index t (0 : Fin 2) * 8 + a.val) (h1 : (k 1).val = win0_1.index t (1 : Fin 2) * 128 + b.val) :
    in0_1 V c t (ix2 a b) = V c main_arg2 k := by
  have hx0 : win0_1.xsize (grid0.coords t) (0 : Fin 2) = 8 := (deq_grid_facts t).2.2.2.2.2.2.2.2.2.1
  have hm : win0_1.moved (grid0.coords t) (ix2 a b) = true :=
    (win0_1.moved_iff _ _).mpr fun d => match d with
      | ⟨0, _⟩ => by show a.val < win0_1.xsize (grid0.coords t) (0 : Fin 2); rw [hx0]; exact a.isLt
      | ⟨1, _⟩ => hb
  unfold in0_1 Window.fill
  rw [dif_pos hm]
  show V c main_arg2 (((cfg0.win 1).blk t).view.emb _) = V c main_arg2 k
  refine congrArg _ (funext fun d => Fin.ext ?_)
  match d with
  | ⟨0, _⟩ => show win0_1.index t (0 : Fin 2) * 8 + 1 * a.val = (k 0).val; omega
  | ⟨1, _⟩ => show win0_1.index t (1 : Fin 2) * 128 + 1 * b.val = (k 1).val; omega

/-- The scale buffer at `(a, b)`, column `b` inside the array. -/
theorem deq_in0_2_apply (c : Dev nD) (t : Fin cfg0.N) (a : Fin 8) (b : Fin 1024)
    (hb : b.val < win0_2.xsize (grid0.coords t) (1 : Fin 2)) (k : S32x11008.Idx)
    (h0 : (k 0).val = win0_2.index t (0 : Fin 2) * 8 + a.val) (h1 : (k 1).val = win0_2.index t (1 : Fin 2) * 1024 + b.val) :
    in0_2 V c t (ix2 a b) = V c main_arg3 k := by
  have hx0 : win0_2.xsize (grid0.coords t) (0 : Fin 2) = 8 := (deq_grid_facts t).2.2.2.2.2.2.2.2.2.2.2.1
  have hm : win0_2.moved (grid0.coords t) (ix2 a b) = true :=
    (win0_2.moved_iff _ _).mpr fun d => match d with
      | ⟨0, _⟩ => by show a.val < win0_2.xsize (grid0.coords t) (0 : Fin 2); rw [hx0]; exact a.isLt
      | ⟨1, _⟩ => hb
  unfold in0_2 Window.fill
  rw [dif_pos hm]
  show V c main_arg3 (((cfg0.win 2).blk t).view.emb _) = V c main_arg3 k
  refine congrArg _ (funext fun d => Fin.ext ?_)
  match d with
  | ⟨0, _⟩ => show win0_2.index t (0 : Fin 2) * 8 + 1 * a.val = (k 0).val; omega
  | ⟨1, _⟩ => show win0_2.index t (1 : Fin 2) * 1024 + 1 * b.val = (k 1).val; omega

/-! ## One entry of the tile is one entry of the dequantised matrix -/

/-- On the extended reals a dequantised weight is the scale times the difference of the two nibbles read as integers. -/
theorem deq_ideal (qw qz : BitVec 32) (s : EReal) (r n : ℕ) :
    deq (F := Ideal) qw qz s r n = s * (Cert.Spec.nibR qw (r % 8) - Cert.Spec.nibR qz (n % 8)) := rfl

/-- With the three input entries taken where the matrix takes them and the nibble numbers those of the matrix's row and
    column, the dequantised weight is the matrix's entry. -/
theorem deq_tile_entry (qw : S512x11008.Idx → BitVec 32) (qz : S32x1376.Idx → BitVec 32) (sc : S32x11008.Idx → EReal)
    (K : Fin 4096) (N : Fin 11008) (r n : ℕ) (hr : r % 8 = K.val % 8) (hn : n % 8 = N.val % 8) :
    deq (F := Ideal) (qw (ix2 (⟨K.val / 8, by omega⟩ : Fin 512) N))
        (qz (ix2 (⟨K.val / 128, by omega⟩ : Fin 32) (⟨N.val / 8, by omega⟩ : Fin 1376)))
        (sc (ix2 (⟨K.val / 128, by omega⟩ : Fin 32) N)) r n
      = Cert.Spec.Wspec qw qz sc K N := by
  rw [deq_ideal, hr, hn]
  rfl

/-- What point `t` writes back is its tile of the dequantised matrix: entry `(r, n)` of the tile, `n` inside the
    array, sits at `(1024 i + r, 1024 j + n)`, and `(1024 i + r) / 8 = 128 i + r / 8`, `(1024 i + r) / 128 = 8 i + r / 128`,
    `(1024 j + n) / 8 = 128 j + n / 8`, with the same remainders modulo 8. -/
theorem deq_flushed_eq (c : Dev nD) (t : Fin cfg0.N) :
    (dat0 (F := Ideal) V c).flushed 3 t
      = ((cfg0.win 3).blk t).view.read (Elt Ideal)
          (fun i => Cert.Spec.Wspec (V c main_arg1) (V c main_arg2) (V c main_arg3) (i 0) (i 1)) := by
  obtain ⟨e00, e01, e10, e11, e20, e21, hI, x00, x01, x10, x11, x20, x21, x30, x31⟩ := deq_grid_facts t
  -- an entry over variables: `(r, n)` in the tile, `(K, N)` in the array
  have key : ∀ (r n : Fin 1024) (K : Fin 4096) (N : Fin 11008),
      n.val < win0_3.xsize (grid0.coords t) (1 : Fin 2) →
      K.val = win0_3.index t (0 : Fin 2) * 1024 + r.val → N.val = win0_3.index t (1 : Fin 2) * 1024 + n.val →
      k0_pay1 (in0_0 V c t) (in0_1 V c t) (in0_2 V c t) (ix2 r n)
        = Cert.Spec.Wspec (V c main_arg1) (V c main_arg2) (V c main_arg3) K N := by
    intro r n K N hn hK hN
    rw [k0_pay1_apply,
      deq_in0_0_apply V c t (⟨r.val / 8, by omega⟩ : Fin 128) n (by omega) (ix2 (⟨K.val / 8, by omega⟩ : Fin 512) N)
        (by show K.val / 8 = win0_0.index t (0 : Fin 2) * 128 + r.val / 8; omega)
        (by show N.val = win0_0.index t (1 : Fin 2) * 1024 + n.val; omega),
      deq_in0_1_apply V c t (⟨r.val / 128, by omega⟩ : Fin 8) (⟨n.val / 8, by omega⟩ : Fin 128) (by show n.val / 8 < _; omega)
        (ix2 (⟨K.val / 128, by omega⟩ : Fin 32) (⟨N.val / 8, by omega⟩ : Fin 1376))
        (by show K.val / 128 = win0_1.index t (0 : Fin 2) * 8 + r.val / 128; omega)
        (by show N.val / 8 = win0_1.index t (1 : Fin 2) * 128 + n.val / 8; omega),
      deq_in0_2_apply V c t (⟨r.val / 128, by omega⟩ : Fin 8) n (by omega) (ix2 (⟨K.val / 128, by omega⟩ : Fin 32) N)
        (by show K.val / 128 = win0_2.index t (0 : Fin 2) * 8 + r.val / 128; omega)
        (by show N.val = win0_2.index t (1 : Fin 2) * 1024 + n.val; omega)]
    exact deq_tile_entry _ _ _ K N r.val n.val (by omega) (by omega)
  funext y
  have hy0 : (y 0).val < win0_3.xsize (grid0.coords t) (0 : Fin 2) := (y 0).isLt
  have hy1 : (y 1).val < win0_3.xsize (grid0.coords t) (1 : Fin 2) := (y 1).isLt
  have hr : (y 0).val < 1024 := by omega
  have hn : (y 1).val < 1024 := by omega
  have hx : win0_3.xinj (grid0.coords t) y = ix2 (⟨(y 0).val, hr⟩ : Fin 1024) (⟨(y 1).val, hn⟩ : Fin 1024) :=
    funext fun d => match d with | ⟨0, _⟩ => rfl | ⟨1, _⟩ => rfl
  show k0_pay1 (in0_0 V c t) (in0_1 V c t) (in0_2 V c t) (win0_3.xinj (grid0.coords t) y)
      = Cert.Spec.Wspec (V c main_arg1) (V c main_arg2) (V c main_arg3)
          (((cfg0.win 3).blk t).view.emb y 0) (((cfg0.win 3).blk t).view.emb y 1)
  rw [hx]
  exact key _ _ _ _ hy1
    (by show win0_3.index t (0 : Fin 2) * 1024 + 1 * (y 0).val = win0_3.index t (0 : Fin 2) * 1024 + (y 0).val; omega)
    (by show win0_3.index t (1 : Fin 2) * 1024 + 1 * (y 1).val = win0_3.index t (1 : Fin 2) * 1024 + (y 1).val; omega)

/-! ## The 44 tiles cover the array -/

/-- An entry of the array is in point `t`'s tile iff each coordinate is in the tile's range inside the array. -/
theorem deq_mem_tile (t : Fin cfg0.N) (i : S4096x11008.Idx) :
    i ∈ ((cfg0.win 3).blk t).view.set
      ↔ ∀ a : Fin 2, win0_3.index t a * S1024x1024.size a ≤ (i a).val
          ∧ (i a).val < win0_3.index t a * S1024x1024.size a + win0_3.xsize (grid0.coords t) a := by
  show i ∈ ((View.whole main_v0).slice (win0_3.rect t)).set ↔ _
  rw [View.set_slice_whole, Rect.mem_set_unit]
  exact Iff.rfl

/-- Entry `(k, n)` lies in the tile of the point with row tile `k / 1024` and column tile `n / 1024`. -/
theorem deq_covered (i : S4096x11008.Idx) :
    ∃ t : Fin cfg0.N, (cfg0.win 3).flush t = true ∧ i ∈ ((cfg0.win 3).blk t).view.set := by
  have hi0 : (i 0).val < 4096 := (i 0).isLt
  have hi1 : (i 1).val < 11008 := (i 1).isLt
  obtain ⟨t, ht⟩ := deq_tile_onto ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  obtain ⟨-, -, -, -, -, -, -, -, -, -, -, -, -, x30, x31⟩ := deq_grid_facts t
  refine ⟨t, flush0_3 t, ?_⟩
  rw [deq_mem_tile]
  intro a
  match a with
  | ⟨0, _⟩ =>
    show win0_3.index t (0 : Fin 2) * 1024 ≤ (i 0).val
      ∧ (i 0).val < win0_3.index t (0 : Fin 2) * 1024 + win0_3.xsize (grid0.coords t) (0 : Fin 2)
    omega
  | ⟨1, _⟩ =>
    show win0_3.index t (1 : Fin 2) * 1024 ≤ (i 1).val
      ∧ (i 1).val < win0_3.index t (1 : Fin 2) * 1024 + win0_3.xsize (grid0.coords t) (1 : Fin 2)
    omega

/-- After region 0 the weight buffer holds the dequantised matrix of the region's three input arrays. -/
theorem deq_final (c : Dev nD) :
    (dat0 (F := Ideal) V c).arrAt 3 cfg0.N
      = fun i => Cert.Spec.Wspec (V c main_arg1) (V c main_arg2) (V c main_arg3) (i 0) (i 1) := by
  -- every point writes back its tile of the matrix, and the tiles cover the array
  exact (dat0 (F := Ideal) V c).arrAt_eq_of_cover 3 _ (fun t _ => deq_flushed_eq V c t) deq_covered

end Cert.KernelIdeal.Hand

end
-- ==== Proof.KernelIdeal.MatValue.lean ====
/-
  What region 1 leaves in its result buffer, at the ideal instance: the product of the activation matrix with the weight
  matrix plus the bias row, `Spec.Mspec`. The sixteen points of one (row tile, column tile) run reset the 1024 x 5504
  output block to zero and add the products of the sixteen 256-wide slices of the contracted axis in turn; the last adds
  the bias row and the block is written back. A sum of sixteen slice sums is the whole sum, and the 8 x 2 blocks tile the
  8192 x 11008 array.
-/
import proofs.«420482_j81174881894900_2_alg».proof.Proof.KernelIdeal.R1
import proofs.«420482_j81174881894900_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx

/-! ## The body's three payloads at an entry of the 1024 x 5504 block -/

/-- The left operand's row at an output index is the output's row. -/
theorem mm_lhs_0 (i : S1024x5504.Idx) (q : dot_S1024x256_S256x5504_S1024x5504_1_0_0_1_n_n.contr.Idx) :
    (dot_S1024x256_S256x5504_S1024x5504_1_0_0_1_n_n.lhsIdx i q 0).val = (i 0).val := by
  unfold DotDims.lhsIdx
  rw [dif_neg (show ¬(0 : Fin S1024x256.rank) ∈ dot_S1024x256_S256x5504_S1024x5504_1_0_0_1_n_n.lhsBatch by decide), dif_pos (show (0 : Fin S1024x256.rank) ∈ dot_S1024x256_S256x5504_S1024x5504_1_0_0_1_n_n.lhsNonContracting by decide)]
  rfl
/-- The left operand's column is the contracted position. -/
theorem mm_lhs_1 (i : S1024x5504.Idx) (q : dot_S1024x256_S256x5504_S1024x5504_1_0_0_1_n_n.contr.Idx) :
    (dot_S1024x256_S256x5504_S1024x5504_1_0_0_1_n_n.lhsIdx i q 1).val = (q ⟨0, by decide⟩).val :=
  dot_S1024x256_S256x5504_S1024x5504_1_0_0_1_n_n.lhsIdx_val_of_single rfl i q
/-- The right operand's row is the contracted position. -/
theorem mm_rhs_0 (i : S1024x5504.Idx) (q : dot_S1024x256_S256x5504_S1024x5504_1_0_0_1_n_n.contr.Idx) :
    (dot_S1024x256_S256x5504_S1024x5504_1_0_0_1_n_n.rhsIdx i q 0).val = (q ⟨0, by decide⟩).val :=
  dot_S1024x256_S256x5504_S1024x5504_1_0_0_1_n_n.rhsIdx_val_of_single rfl i q
/-- The right operand's column is the output's column. -/
theorem mm_rhs_1 (i : S1024x5504.Idx) (q : dot_S1024x256_S256x5504_S1024x5504_1_0_0_1_n_n.contr.Idx) :
    (dot_S1024x256_S256x5504_S1024x5504_1_0_0_1_n_n.rhsIdx i q 1).val = (i 1).val := by
  unfold DotDims.rhsIdx
  rw [dif_neg (show ¬(1 : Fin S256x5504.rank) ∈ dot_S1024x256_S256x5504_S1024x5504_1_0_0_1_n_n.rhsBatch by decide), dif_pos (show (1 : Fin S256x5504.rank) ∈ dot_S1024x256_S256x5504_S1024x5504_1_0_0_1_n_n.rhsNonContracting by decide)]
  rfl

/-- The product of a 1024 x 256 block with a 256 x 5504 block into the zero accumulator, at an entry: the sum over the
    256 contracted positions of the products of the row's and the column's entries. -/
theorem mm_apply (x : FVec Ideal S1024x256 .bf16) (w : FVec Ideal S256x5504 .bf16) (r : Fin 1024) (n : Fin 5504) :
    matmul dot_S1024x256_S256x5504_S1024x5504_1_0_0_1_n_n none x w (constant S1024x5504 .f32 0x00000000#32) (ix2 r n)
      = ∑ kk : Fin 256, x (ix2 r kk) * w (ix2 kk n) := by
  simp only [matmul]
  rw [Ideal.matmul_constant_zero_apply, ← Equiv.sum_comp (contrEquiv1 dot_S1024x256_S256x5504_S1024x5504_1_0_0_1_n_n 256 rfl rfl).symm]
  refine Finset.sum_congr rfl fun k _ => ?_
  have hk := contrEquiv1_symm_val dot_S1024x256_S256x5504_S1024x5504_1_0_0_1_n_n 256 rfl rfl k
  have el : dot_S1024x256_S256x5504_S1024x5504_1_0_0_1_n_n.lhsIdx (ix2 r n) ((contrEquiv1 dot_S1024x256_S256x5504_S1024x5504_1_0_0_1_n_n 256 rfl rfl).symm k) = ix2 r k := funext fun a => Fin.ext (by
    match a with
    | ⟨0, _⟩ => exact mm_lhs_0 _ _
    | ⟨1, _⟩ => exact (mm_lhs_1 _ _).trans hk)
  have er : dot_S1024x256_S256x5504_S1024x5504_1_0_0_1_n_n.rhsIdx (ix2 r n) ((contrEquiv1 dot_S1024x256_S256x5504_S1024x5504_1_0_0_1_n_n 256 rfl rfl).symm k) = ix2 k n := funext fun a => Fin.ext (by
    match a with
    | ⟨0, _⟩ => exact (mm_rhs_0 _ _).trans hk
    | ⟨1, _⟩ => exact mm_rhs_1 _ _)
  rw [el, er]

/-- The reset block is zero everywhere. -/
theorem pay1_apply (i : S1024x5504.Idx) : k1_pay1 (F := Ideal) i = 0 := by
  unfold k1_pay1
  show Ideal.ofBits .f32 0x00000000#32 = 0
  exact Ideal.ofBits_zero_f32

/-- The accumulating step at an entry: what the block held there plus the product's entry. -/
theorem pay2_apply (acc : Vec Ideal S1024x5504 .f32) (x : Vec Ideal S1024x256 .bf16) (w : Vec Ideal S256x5504 .bf16)
    (r : Fin 1024) (n : Fin 5504) :
    k1_pay2 acc x w (ix2 r n) = acc (ix2 r n) + ∑ kk : Fin 256, x (ix2 r kk) * w (ix2 kk n) := by
  unfold k1_pay2
  simp only [shapeCast_self]
  rw [addf_apply]
  exact congrArg (acc (ix2 r n) + ·) (mm_apply x w r n)

/-- The closing step at an entry: what the block held there plus the bias row's entry of that column. -/
theorem pay3_apply (acc : Vec Ideal S1024x5504 .f32) (b : Vec Ideal S1x5504 .f32) (r : Fin 1024) (n : Fin 5504) :
    k1_pay3 acc b (ix2 r n) = acc (ix2 r n) + b (ix2 (0 : Fin 1) n) := by
  unfold k1_pay3
  simp only [shapeCast_self]
  rw [addf_apply]
  exact congrArg (acc (ix2 r n) + ·) (broadcastTo_1b_ab_apply b broadcasts_S1x5504_S1024x5504 r n)

/-! ## Arrays read at natural coordinates, and the blocks of a point -/

/-- A rank-2 array read at natural coordinates: its entry inside the array, zero outside. -/
def at2 {n0 n1 : ℕ} (A : (⟨2, ![n0, n1]⟩ : Shape).Idx → EReal) (a b : ℕ) : EReal :=
  if h : a < n0 ∧ b < n1 then A (ix2 ⟨a, h.1⟩ ⟨b, h.2⟩) else 0

/-- An entry of the array is its reading at the entry's coordinates. -/
theorem at2_eq {n0 n1 : ℕ} (A : (⟨2, ![n0, n1]⟩ : Shape).Idx → EReal) (e : (⟨2, ![n0, n1]⟩ : Shape).Idx) (a b : ℕ)
    (h0 : (e 0).val = a) (h1 : (e 1).val = b) : A e = at2 A a b := by
  subst h0 h1
  unfold at2
  rw [dif_pos ⟨(e 0).isLt, (e 1).isLt⟩]
  exact congrArg A (eq_ix2 e)

/-- The index maps over the 256 points: at point (i, j, k), numbered (2 i + j) * 16 + k, the activation block is (i, k),
    the weight block (k, j), the bias block (0, j), the output block (i, j). -/
theorem idx_facts1 : ∀ t : Fin cfg1.N,
    win1_0.index t (0 : Fin 2) = t.val / 32 ∧ win1_0.index t (1 : Fin 2) = t.val % 16
    ∧ win1_1.index t (0 : Fin 2) = t.val % 16 ∧ win1_1.index t (1 : Fin 2) = t.val / 16 % 2
    ∧ win1_2.index t (0 : Fin 2) = 0 ∧ win1_2.index t (1 : Fin 2) = t.val / 16 % 2
    ∧ win1_3.index t (0 : Fin 2) = t.val / 32 ∧ win1_3.index t (1 : Fin 2) = t.val / 16 % 2 :=
  (by decide +kernel : ∀ t : Fin grid1.N, _)

variable (V : (c : Dev nD) → (b : Ref sig .tc) → Buf (Elt Ideal) ((c : Thread nD τ).loc b))

/-- The activation block of a point: rows from 1024 i, columns from 256 k. -/
theorem blkX_apply (c : Dev nD) (t : Fin cfg1.N) (r : Fin 1024) (kk : Fin 256) :
    (blk1 V c 0 t : Vec Ideal S1024x256 .bf16) (ix2 r kk)
      = at2 (n0 := 8192) (n1 := 4096) (V c main_v2) (1024 * (t.val / 32) + r.val) (256 * (t.val % 16) + kk.val) := by
  obtain ⟨e0, e1, -⟩ := idx_facts1 t
  unfold blk1
  rw [View.read_apply]
  refine at2_eq (n0 := 8192) (n1 := 4096) (V c main_v2) _ _ _ ?_ ?_
  · refine (Window.rect_emb_val win1_0 t (ix2 r kk) 0).trans ?_
    rw [e0]; show t.val / 32 * 1024 + r.val = _; omega
  · refine (Window.rect_emb_val win1_0 t (ix2 r kk) 1).trans ?_
    rw [e1]; show t.val % 16 * 256 + kk.val = _; omega

/-- The weight block of a point: rows from 256 k, columns from 5504 j. -/
theorem blkW_apply (c : Dev nD) (t : Fin cfg1.N) (kk : Fin 256) (n : Fin 5504) :
    (blk1 V c 1 t : Vec Ideal S256x5504 .bf16) (ix2 kk n)
      = at2 (n0 := 4096) (n1 := 11008) (V c main_v0) (256 * (t.val % 16) + kk.val) (5504 * (t.val / 16 % 2) + n.val) := by
  obtain ⟨-, -, e0, e1, -⟩ := idx_facts1 t
  unfold blk1
  rw [View.read_apply]
  refine at2_eq (n0 := 4096) (n1 := 11008) (V c main_v0) _ _ _ ?_ ?_
  · refine (Window.rect_emb_val win1_1 t (ix2 kk n) 0).trans ?_
    rw [e0]; show t.val % 16 * 256 + kk.val = _; omega
  · refine (Window.rect_emb_val win1_1 t (ix2 kk n) 1).trans ?_
    rw [e1]; show t.val / 16 % 2 * 5504 + n.val = _; omega

/-- The bias block of a point: the one row, columns from 5504 j. -/
theorem blkB_apply (c : Dev nD) (t : Fin cfg1.N) (n : Fin 5504) :
    (blk1 V c 2 t : Vec Ideal S1x5504 .f32) (ix2 (0 : Fin 1) n)
      = at2 (n0 := 1) (n1 := 11008) (V c main_v3) 0 (5504 * (t.val / 16 % 2) + n.val) := by
  obtain ⟨-, -, -, -, e0, e1, -⟩ := idx_facts1 t
  unfold blk1
  rw [View.read_apply]
  refine at2_eq (n0 := 1) (n1 := 11008) (V c main_v3) _ _ _ ?_ ?_
  · refine (Window.rect_emb_val win1_2 t (ix2 (0 : Fin 1) n) 0).trans ?_
    rw [e0]; show 0 * 1 + 0 = 0; rfl
  · refine (Window.rect_emb_val win1_2 t (ix2 (0 : Fin 1) n) 1).trans ?_
    rw [e1]; show t.val / 16 % 2 * 5504 + n.val = _; omega

/-! ## One run of sixteen points -/

/-- The product's entry for slice `s` of the contracted axis, at row `r` and column `n` of the output block of run
    `q` = 2 i + j: the sum over the slice's 256 positions. -/
def sliceSum (c : Dev nD) (q s r n : ℕ) : EReal :=
  ∑ kk : Fin 256, at2 (n0 := 8192) (n1 := 4096) (V c main_v2) (1024 * (q / 2) + r) (256 * s + kk.val)
      * at2 (n0 := 4096) (n1 := 11008) (V c main_v0) (256 * s + kk.val) (5504 * (q % 2) + n)

/-- The product of a point's two blocks at an entry is the slice sum of the point's run and slice. -/
theorem blocks_sum (c : Dev nD) (t : Fin cfg1.N) (q s : ℕ) (ht : t.val = 16 * q + s) (hs : s < 16)
    (x : Vec Ideal S1024x256 .bf16) (w : Vec Ideal S256x5504 .bf16) (hx : x = blk1 V c 0 t) (hw : w = blk1 V c 1 t)
    (r : Fin 1024) (n : Fin 5504) :
    ∑ kk : Fin 256, x (ix2 r kk) * w (ix2 kk n) = sliceSum V c q s r.val n.val := by
  unfold sliceSum
  refine Finset.sum_congr rfl fun kk _ => ?_
  rw [hx, hw, blkX_apply, blkW_apply, show t.val / 32 = q / 2 by omega, show t.val % 16 = s by omega,
    show t.val / 16 % 2 = q % 2 by omega]

/-- Before the last point of run `q`, after the point of slice `s` the block holds zero plus the slice sums up to `s`. -/
theorem run_partial (c : Dev nD) (q : ℕ) : ∀ (s : ℕ) (hs : s < 15) (h : 16 * q + s < cfg1.N) (r : Fin 1024) (n : Fin 5504),
    outsAt1 V c (16 * q + s) h (ix2 r n) = 0 + ∑ s' ∈ Finset.range (s + 1), sliceSum V c q s' r.val n.val
  | 0, _, h, r, n => by
    have e := outsAt1_first V c ⟨16 * q + 0, h⟩ (by show (16 * q + 0) % 16 = 0; omega) (by show ¬(16 * q + 0) % 16 = 15; omega)
    refine (congrFun e (ix2 r n)).trans ?_
    refine (pay2_apply _ (blk1 V c 0 ⟨16 * q + 0, h⟩) (blk1 V c 1 ⟨16 * q + 0, h⟩) r n).trans ?_
    rw [pay1_apply, Finset.sum_range_one, blocks_sum V c ⟨16 * q + 0, h⟩ q 0 rfl (by omega) _ _ rfl rfl r n]
  | s + 1, hs, h, r, n => by
    have e := (outsAt1_succ V c (16 * q + s) h).trans (step1_B V c ⟨16 * q + s + 1, h⟩ _
      (by show ¬(16 * q + s + 1) % 16 = 0; omega) (by show ¬(16 * q + s + 1) % 16 = 15; omega))
    refine (congrFun e (ix2 r n)).trans ?_
    refine (pay2_apply _ (blk1 V c 0 ⟨16 * q + s + 1, h⟩) (blk1 V c 1 ⟨16 * q + s + 1, h⟩) r n).trans ?_
    rw [run_partial c q s (by omega) (Nat.lt_of_succ_lt h) r n,
      blocks_sum V c ⟨16 * q + s + 1, h⟩ q (s + 1) (by show 16 * q + s + 1 = 16 * q + (s + 1); omega) (by omega) _ _ rfl rfl r n,
      Finset.sum_range_succ _ (s + 1), add_assoc]

/-- After the last point of run `q` the block holds the sixteen slice sums plus the bias row's entry. -/
theorem run_last (c : Dev nD) (q : ℕ) (h : 16 * q + 15 < cfg1.N) (r : Fin 1024) (n : Fin 5504) :
    outsAt1 V c (16 * q + 15) h (ix2 r n)
      = (∑ s ∈ Finset.range 16, sliceSum V c q s r.val n.val)
        + at2 (n0 := 1) (n1 := 11008) (V c main_v3) 0 (5504 * (q % 2) + n.val) := by
  have e := (outsAt1_succ V c (16 * q + 14) h).trans (step1_C V c ⟨16 * q + 14 + 1, h⟩ _
    (by show ¬(16 * q + 14 + 1) % 16 = 0; omega) (by show (16 * q + 14 + 1) % 16 = 15; omega))
  refine (congrFun e (ix2 r n)).trans ?_
  refine (pay3_apply _ (blk1 V c 2 ⟨16 * q + 14 + 1, h⟩) r n).trans ?_
  refine (congrArg (· + _) (pay2_apply _ (blk1 V c 0 ⟨16 * q + 14 + 1, h⟩) (blk1 V c 1 ⟨16 * q + 14 + 1, h⟩) r n)).trans ?_
  rw [run_partial V c q 14 (by omega) (Nat.lt_of_succ_lt h) r n,
    blocks_sum V c ⟨16 * q + 14 + 1, h⟩ q 15 (by show 16 * q + 14 + 1 = 16 * q + 15; omega) (by omega) _ _ rfl rfl r n,
    blkB_apply, zero_add, ← Finset.sum_range_succ _ 15,
    show (⟨16 * q + 14 + 1, h⟩ : Fin cfg1.N).val / 16 % 2 = q % 2 by show (16 * q + 14 + 1) / 16 % 2 = q % 2; omega]

/-- The sixteen slice sums are the whole sum over the contracted axis. -/
theorem slices_total (c : Dev nD) (q r n : ℕ) :
    ∑ s ∈ Finset.range 16, sliceSum V c q s r n
      = ∑ k : Fin 4096, at2 (n0 := 8192) (n1 := 4096) (V c main_v2) (1024 * (q / 2) + r) k.val
          * at2 (n0 := 4096) (n1 := 11008) (V c main_v0) k.val (5504 * (q % 2) + n) := by
  unfold sliceSum
  exact Cert.Spec.sum_slices fun kk => at2 (n0 := 8192) (n1 := 4096) (V c main_v2) (1024 * (q / 2) + r) kk
    * at2 (n0 := 4096) (n1 := 11008) (V c main_v0) kk (5504 * (q % 2) + n)

/-! ## The result array -/

/-- What the result buffer ends holding: activations x weights + bias. -/
def matG (c : Dev nD) : (⟨2, ![8192, 11008]⟩ : Shape).Idx → EReal :=
  fun i => Cert.Spec.Mspec (V c main_v2) (fun k n => V c main_v0 (ix2 k n)) (fun n => V c main_v3 (ix2 (0 : Fin 1) n)) (i 0) (i 1)

/-- It at an entry, through the arrays' readings at natural coordinates. -/
theorem matG_apply (c : Dev nD) (e : (⟨2, ![8192, 11008]⟩ : Shape).Idx) (a b : ℕ) (h0 : (e 0).val = a) (h1 : (e 1).val = b) :
    matG V c e
      = (∑ k : Fin 4096, at2 (n0 := 8192) (n1 := 4096) (V c main_v2) a k.val * at2 (n0 := 4096) (n1 := 11008) (V c main_v0) k.val b)
        + at2 (n0 := 1) (n1 := 11008) (V c main_v3) 0 b := by
  subst h0 h1
  unfold matG Cert.Spec.Mspec
  refine congrArg₂ (· + ·) (Finset.sum_congr rfl fun k _ => ?_) ?_
  · exact congrArg₂ (· * ·) (at2_eq (n0 := 8192) (n1 := 4096) (V c main_v2) (ix2 (e 0) k) _ _ rfl rfl)
      (at2_eq (n0 := 4096) (n1 := 11008) (V c main_v0) (ix2 k (e 1)) _ _ rfl rfl)
  · exact at2_eq (n0 := 1) (n1 := 11008) (V c main_v3) (ix2 (0 : Fin 1) (e 1)) _ _ rfl rfl

/-- The recursion at equal positions. -/
theorem outsAt1_congr (c : Dev nD) (a b : ℕ) (ha : a < cfg1.N) (hb : b < cfg1.N) (e : a = b) :
    outsAt1 V c a ha = outsAt1 V c b hb := by
  subst e; rfl

/-- At the last point of a run the block's entry is the result's entry at the block's offsets plus the entry's
    coordinates. -/
theorem run_entry (c : Dev nD) (t : Fin cfg1.N) (h15 : t.val % 16 = 15) (y : S1024x5504.Idx) (e : (⟨2, ![8192, 11008]⟩ : Shape).Idx)
    (he0 : (e 0).val = t.val / 32 * 1024 + (y 0).val) (he1 : (e 1).val = t.val / 16 % 2 * 5504 + (y 1).val) :
    outsAt1 V c t.val t.isLt y = matG V c e := by
  have ht : t.val = 16 * (t.val / 16) + 15 := by omega
  obtain ⟨r, n, rfl⟩ : ∃ (r : Fin 1024) (n : Fin 5504), y = ix2 r n := ⟨y 0, y 1, eq_ix2 y⟩
  have he0' : (e 0).val = t.val / 32 * 1024 + r.val := he0
  have he1' : (e 1).val = t.val / 16 % 2 * 5504 + n.val := he1
  rw [outsAt1_congr V c t.val (16 * (t.val / 16) + 15) t.isLt (lt_of_eq_of_lt ht.symm t.isLt) ht, run_last, slices_total,
    matG_apply V c e (1024 * (t.val / 16 / 2) + r.val) (5504 * (t.val / 16 % 2) + n.val) (by omega) (by omega)]

/-- What a last point of a run writes back is its block of the result. -/
theorem flushed1_eq (c : Dev nD) (t : Fin cfg1.N) (hf : (cfg1.win 3).flush t = true) :
    (dat1 V c).flushed 3 t = ((cfg1.win 3).blk t).view.read (Elt Ideal) (matG V c) := by
  have h15 : t.val % 16 = 15 := (flush1_3 t).mp hf
  obtain ⟨-, -, -, -, -, -, e0, e1⟩ := idx_facts1 t
  show (cfg1.win 3).cut (grid1.coords t) ((dat1 V c).after 3 t) = _
  rw [after1_3]
  funext y
  rw [View.read_apply]
  exact run_entry V c t h15 y _ ((Window.rect_emb_val win1_3 t y 0).trans (by rw [e0]; rfl))
    ((Window.rect_emb_val win1_3 t y 1).trans (by rw [e1]; rfl))

/-- Every entry of the result lies in the block of the last point of its row tile's and column tile's run. -/
theorem covered1 (i : (⟨2, ![8192, 11008]⟩ : Shape).Idx) :
    ∃ t : Fin cfg1.N, (cfg1.win 3).flush t = true ∧ i ∈ ((cfg1.win 3).blk t).view.set := by
  have hi0 : (i 0).val < 8192 := (i 0).isLt
  have hi1 : (i 1).val < 11008 := (i 1).isLt
  have hN : cfg1.N = 256 := N_1
  let t : Fin cfg1.N := ⟨((i 0).val / 1024 * 2 + (i 1).val / 5504) * 16 + 15, by rw [hN]; omega⟩
  have htv : t.val = ((i 0).val / 1024 * 2 + (i 1).val / 5504) * 16 + 15 := rfl
  obtain ⟨-, -, -, -, -, -, e0, e1⟩ := idx_facts1 t
  refine ⟨t, (flush1_3 t).mpr (by rw [htv]; omega), ?_⟩
  show i ∈ ((View.whole main_v4).slice (win1_3.rect t)).set
  rw [View.set_slice_whole, Rect.mem_set_unit]
  intro a
  match a with
  | ⟨0, _⟩ =>
    show win1_3.index t (0 : Fin 2) * 1024 ≤ (i 0).val ∧ (i 0).val < win1_3.index t (0 : Fin 2) * 1024 + 1024
    rw [e0, htv]; omega
  | ⟨1, _⟩ =>
    show win1_3.index t (1 : Fin 2) * 5504 ≤ (i 1).val ∧ (i 1).val < win1_3.index t (1 : Fin 2) * 5504 + 5504
    rw [e1, htv]; omega

/-- After region 1 the result buffer holds activations x weights + bias, of the region's three input arrays. -/
theorem mat_final (c : Dev nD) :
    (dat1 (F := Ideal) V c).arrAt 3 cfg1.N
      = fun i => Cert.Spec.Mspec (V c main_v2) (fun k n => V c main_v0 (ix2 k n)) (fun n => V c main_v3 (ix2 (0 : Fin 1) n)) (i 0) (i 1) := by
  exact (dat1 (F := Ideal) V c).arrAt_eq_of_cover 3 (matG V c) (flushed1_eq V c) covered1

end Cert.KernelIdeal.Hand

end
-- ==== Proof.KernelIdeal.KernelValue.lean ====
/-
  What the idealized kernel leaves in its result, as `Spec.Gspec` of the five argument arrays. The last host operation
  re-lays region 1's 8192 x 11008 result as 4 x 2048 x 11008: entry [a, s, n] is entry (2048 a + s, n). Region 1's result is
  activations x weights + bias of the three buffers it reads: the activations re-laid as 8192 x 4096 (narrowing the format
  changes nothing on the extended reals), the weight buffer as region 0 left it — the dequantised matrix of the three
  quantisation arrays, which no host operation in between touches —, and the bias re-laid as a row.
-/
import proofs.«420482_j81174881894900_2_alg».proof.Proof.KernelIdeal.Frame
import proofs.«420482_j81174881894900_2_alg».proof.Proof.KernelIdeal.DeqValue
import proofs.«420482_j81174881894900_2_alg».proof.Proof.KernelIdeal.MatValue
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

open Idealize.ShloMosaic.ValueIdx Idealize.ShloMosaic.StableHlo

variable (m : (ℓ : Loc nD τ sig) → Buf (Elt Ideal) ℓ) (ρ : Dev nD → PrngReg)

/-! ## The three buffers region 1 reads, as it finds them -/

/-- The activations, re-laid as a matrix and narrowed. -/
theorem VB_v2 (c : Dev nD) : (VB m c main_v2 : S8192x4096.Idx → EReal)
    = (truncf (F := Ideal) .bf16 (shapeCast S8192x4096 (W1 m c (Proc.devRef .tc main_arg0) : S4x2048x4096.Idx → EReal) shapeCasts_S4x2048x4096_S8192x4096) bitsLt_bf16_f32 : S8192x4096.Idx → EReal) := by
  show StableHlo.after hostOps1 (W1 m c) (Proc.devRef .tc main_v2) = _
  after_results
  rfl

/-- The bias, re-laid as a row. -/
theorem VB_v3 (c : Dev nD) : (VB m c main_v3 : S1x11008.Idx → EReal)
    = (shapeCast S1x11008 (W1 m c (Proc.devRef .tc main_arg4) : S11008.Idx → EReal) shapeCasts_S11008_S1x11008 : S1x11008.Idx → EReal) := by
  show StableHlo.after hostOps1 (W1 m c) (Proc.devRef .tc main_v3) = _
  after_results
  rfl

/-- The weight buffer: as region 0 left it. -/
theorem VB_v0 (c : Dev nD) : VB m c main_v0 = (dat0 (VA m) c).arrAt 3 cfg0.N :=
  (StableHlo.after_of_writes_sub hostOps1 _ hostOps1_writes (by decide)).trans (W1_arr m c 3)

theorem W1_arg0 (c : Dev nD) : W1 m c (Proc.devRef .tc main_arg0) = m ((c : Thread nD τ).loc main_arg0) :=
  W1_of_ne m c main_arg0 (by decide)
theorem W1_arg4 (c : Dev nD) : W1 m c (Proc.devRef .tc main_arg4) = m ((c : Thread nD τ).loc main_arg4) :=
  W1_of_ne m c main_arg4 (by decide)

/-! ## The result -/

/-- The result buffer: region 1's result re-laid. -/
theorem W4_v5 (c : Dev nD) : (W4 m c main_v5 : S4x2048x11008.Idx → EReal)
    = (shapeCast S4x2048x11008 (W3 m c (Proc.devRef .tc main_v4) : S8192x11008.Idx → EReal) shapeCasts_S8192x11008_S4x2048x11008 : S4x2048x11008.Idx → EReal) := by
  show StableHlo.after hostOps2 (W3 m c) (Proc.devRef .tc main_v5) = _
  after_results
  rfl

/-- The kernel's result is `Spec.Gspec` of the argument arrays. -/
theorem final_value (c : Dev nD) : (W4 m c main_v5 : S4x2048x11008.Idx → EReal)
    = Cert.Spec.Gspec (m ((c : Thread nD τ).loc main_arg0)) (m ((c : Thread nD τ).loc main_arg1)) (m ((c : Thread nD τ).loc main_arg2))
        (m ((c : Thread nD τ).loc main_arg3)) (m ((c : Thread nD τ).loc main_arg4)) := by
  rw [W4_v5, show W3 m c (Proc.devRef .tc main_v4) = (dat1 (VB m) c).arrAt 3 cfg1.N from W3_arr m c 3, mat_final]
  funext i
  obtain ⟨a, s, n, rfl⟩ : ∃ (a : Fin 4) (s : Fin 2048) (n : Fin 11008), i = ix3 a s n := ⟨i 0, i 1, i 2, eq_ix3 i⟩
  have hR : 2048 * a.val + s.val < 8192 := by omega
  rw [shapeCast_apply _ shapeCasts_S8192x11008_S4x2048x11008 (ix3 a s n) (ix2 (⟨2048 * a.val + s.val, hR⟩ : Fin 8192) n)
    (by rw [Shape.rowMajor_val_two, Shape.rowMajor_val_three]; show (2048 * a.val + s.val) * 11008 + n.val = (a.val * 2048 + s.val) * 11008 + n.val; omega)]
  show Cert.Spec.Mspec _ _ _ (⟨2048 * a.val + s.val, hR⟩ : Fin 8192) n = _
  unfold Cert.Spec.Mspec Cert.Spec.Gspec
  congr 1
  · refine Fintype.sum_congr _ _ fun k => ?_
    congr 1
    · rw [VB_v2, truncf_apply, W1_arg0]
      exact shapeCast_apply _ shapeCasts_S4x2048x4096_S8192x4096 (ix2 (⟨2048 * a.val + s.val, hR⟩ : Fin 8192) k) (ix3 a s k)
        (by rw [Shape.rowMajor_val_two, Shape.rowMajor_val_three]; show (a.val * 2048 + s.val) * 4096 + k.val = (2048 * a.val + s.val) * 4096 + k.val; omega)
    · rw [VB_v0, deq_final]
      rfl
  · rw [VB_v3, W1_arg4]
    exact shapeCast_apply _ shapeCasts_S11008_S1x11008 (ix2 (0 : Fin 1) n) (ix1 n)
      (by rw [Shape.rowMajor_val_one, Shape.rowMajor_val_two]; show n.val = 0 * 11008 + n.val; omega)

/-- Every weakly fair execution of the idealized kernel terminates with its result at `Spec.Gspec` of the argument arrays,
    and the arguments unchanged. -/
theorem run_spec : θ_run (defs (F := Ideal)) (onTc (τ := τ) (main (F := Ideal))) ⟨m, fun _ => 0, ρ⟩ (fun r => ∀ c : Dev nD,
      r.2.mem ((c.tc : Thread nD τ).loc main_v5)
          = Cert.Spec.Gspec (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v5 (by decide))).trans (final_value m c),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c)⟩) (run_main m ρ)

end Cert.KernelIdeal.Hand

end
-- ==== Proof.RefValue.lean ====
/-
  The reference at the ideal instance computes `Spec.Gspec` of its five arguments: it unpacks the two packed arrays
  nibble by nibble (a broadcast against the eight shift amounts, an arithmetic shift, a mask, a re-laying), repeats the
  scales and zero points over the 128 rows of a group, forms scale * (weight - zero), contracts the activations against
  it over the 4096-long axis and adds the bias.
-/
import proofs.«420482_j81174881894900_2_alg».proof.Proof.Gen.ReferenceIdeal.Run
import proofs.«420482_j81174881894900_2_alg».proof.Proof.Gen.ReferenceIdeal.Read
import proofs.«420482_j81174881894900_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Gen
open Idealize.ShloMosaic Idealize.ShloMosaic.TcCoe Idealize.SL.Sem Idealize.ShloMosaic.ValueIdx

open Cert.ReferenceIdeal.Read

/-! ## Words -/

/-- At 32 bits an arithmetic right shift is the same function on the host and on the vector unit: below 32 both are the
    shift, from 32 on both give the word of sign bits. -/
theorem shrsi_host (x y : BitVec 32) : IntOp.shrsi .host x y = IntOp.shrsi .vector x y := by
  simp [IntOp.shrsi, IntOp.cornerWord]

/-- The shift amount at position `e` of the eight: the word `0 + 4 * e`. -/
theorem amt_apply (i : S8.Idx) :
    val_main_v4 (F := Ideal) i = IntOp.addi 0#32 (IntOp.muli 4#32 (BitVec.ofNat 32 (i 0).val)) := by
  rw [val_main_v4_apply, val_main_v3_apply, val_main_c_0_apply, val_main_v2_apply, val_main_v1_apply,
    val_main_c_apply, val_main_v0_apply]

/-! ## The zero points, unpacked -/

/-- Nibble `e` of the packed zero-point word at `(g, c)`. -/
theorem zeros3_apply (x2 : (⟨S32x1376, .i32⟩ : BufTy).Contents (Elt Ideal)) (g : Fin 32) (c : Fin 1376) (e : Fin 8) :
    val_main_v11 (F := Ideal) x2 (ix3 g c e) = Cert.Spec.nib (x2 (ix2 g c)) e.val := by
  have e1 : idx_main_v5 (idx_main_v7 (ix3 g c e)) = ix2 g c :=
    funext fun a => Fin.ext (by match a with | ⟨0, _⟩ => rfl | ⟨1, _⟩ => rfl)
  rw [val_main_v11_apply, val_main_v9_apply, val_main_v7_apply, val_main_v5_apply, val_main_v8_apply,
    val_main_v6_apply, amt_apply, val_main_v10_apply, val_main_c_1_apply, e1, shrsi_host]
  rfl

/-- The zero points laid out `[32, 11008]`: at `(g, n)` nibble `n % 8` of the packed word at `(g, n / 8)`. -/
theorem zeros2_apply (x2 : (⟨S32x1376, .i32⟩ : BufTy).Contents (Elt Ideal)) (g : Fin 32) (n : Fin 11008) :
    val_main_v12 (F := Ideal) x2 (ix2 g n)
      = Cert.Spec.nib (x2 (ix2 g (⟨n.val / 8, by omega⟩ : Fin 1376))) (n.val % 8) := by
  have e1 : idx_main_v12 (ix2 g n) = ix3 g (⟨n.val / 8, by omega⟩ : Fin 1376) (⟨n.val % 8, by omega⟩ : Fin 8) :=
    funext fun a => Fin.ext (by
      have hg := g.isLt; have hn := n.isLt
      match a with
      | ⟨0, _⟩ => show (g.val * 11008 + n.val) / 11008 = g.val; omega
      | ⟨1, _⟩ => show (g.val * 11008 + n.val) / 8 % 1376 = n.val / 8; omega
      | ⟨2, _⟩ => show (g.val * 11008 + n.val) % 8 = n.val % 8; omega)
  rw [val_main_v12_apply, e1, zeros3_apply]

/-- The zero points repeated over the 128 rows of a group, as extended reals: at `(k, n)` the group is `k / 128`. -/
theorem zerosR_apply (x2 : (⟨S32x1376, .i32⟩ : BufTy).Contents (Elt Ideal)) (k : Fin 4096) (n : Fin 11008) :
    val_main_v25 (F := Ideal) x2 (ix2 k n)
      = Cert.Spec.nibR (x2 (ix2 (⟨k.val / 128, by omega⟩ : Fin 32) (⟨n.val / 8, by omega⟩ : Fin 1376))) (n.val % 8) := by
  have e1 : idx_main_v23 (idx_main_v24 (ix2 k n)) = ix2 (⟨k.val / 128, by omega⟩ : Fin 32) n :=
    funext fun a => Fin.ext (by
      have hk := k.isLt; have hn := n.isLt
      match a with
      | ⟨0, _⟩ => show (k.val * 11008 + n.val) / 1409024 = k.val / 128; omega
      | ⟨1, _⟩ => show (k.val * 11008 + n.val) % 11008 = n.val; omega)
  rw [val_main_v25_apply, val_main_v24_apply, val_main_v23_apply, e1, zeros2_apply]
  rfl

/-! ## The weights, unpacked -/

/-- Nibble `e` of the packed weight word at `(r, n)`. -/
theorem weights3_apply (x1 : (⟨S512x11008, .i32⟩ : BufTy).Contents (Elt Ideal)) (r : Fin 512) (e : Fin 8) (n : Fin 11008) :
    val_main_v19 (F := Ideal) x1 (ix3 r e n) = Cert.Spec.nib (x1 (ix2 r n)) e.val := by
  have e1 : idx_main_v13 (idx_main_v15 (ix3 r e n)) = ix2 r n :=
    funext fun a => Fin.ext (by match a with | ⟨0, _⟩ => rfl | ⟨1, _⟩ => rfl)
  rw [val_main_v19_apply, val_main_v17_apply, val_main_v15_apply, val_main_v13_apply, val_main_v16_apply,
    val_main_v14_apply, amt_apply, val_main_v18_apply, val_main_c_2_apply, e1, shrsi_host]
  rfl

/-- The weights laid out `[4096, 11008]`, as extended reals: at `(k, n)` nibble `k % 8` of the packed word at
    `(k / 8, n)`. -/
theorem weightsR_apply (x1 : (⟨S512x11008, .i32⟩ : BufTy).Contents (Elt Ideal)) (k : Fin 4096) (n : Fin 11008) :
    val_main_v26 (F := Ideal) x1 (ix2 k n)
      = Cert.Spec.nibR (x1 (ix2 (⟨k.val / 8, by omega⟩ : Fin 512) n)) (k.val % 8) := by
  have e1 : idx_main_v20 (ix2 k n) = ix3 (⟨k.val / 8, by omega⟩ : Fin 512) (⟨k.val % 8, by omega⟩ : Fin 8) n :=
    funext fun a => Fin.ext (by
      have hk := k.isLt; have hn := n.isLt
      match a with
      | ⟨0, _⟩ => show (k.val * 11008 + n.val) / 88064 = k.val / 8; omega
      | ⟨1, _⟩ => show (k.val * 11008 + n.val) / 11008 % 8 = k.val % 8; omega
      | ⟨2, _⟩ => show (k.val * 11008 + n.val) % 11008 = n.val; omega)
  rw [val_main_v26_apply, val_main_v20_apply, e1, weights3_apply]
  rfl

/-! ## The scales, and the dequantised matrix -/

/-- The scales repeated over the 128 rows of a group. -/
theorem scales_apply (x3 : (⟨S32x11008, .f32⟩ : BufTy).Contents (Elt Ideal)) (k : Fin 4096) (n : Fin 11008) :
    val_main_v22 (F := Ideal) x3 (ix2 k n) = x3 (ix2 (⟨k.val / 128, by omega⟩ : Fin 32) n) := by
  have e1 : idx_main_v21 (idx_main_v22 (ix2 k n)) = ix2 (⟨k.val / 128, by omega⟩ : Fin 32) n :=
    funext fun a => Fin.ext (by
      have hk := k.isLt; have hn := n.isLt
      match a with
      | ⟨0, _⟩ => show (k.val * 11008 + n.val) / 1409024 = k.val / 128; omega
      | ⟨1, _⟩ => show (k.val * 11008 + n.val) % 11008 = n.val; omega)
  rw [val_main_v22_apply, val_main_v21_apply, e1]

/-- The dequantised matrix is `Spec.Wspec`. -/
theorem W_apply (x1 : (⟨S512x11008, .i32⟩ : BufTy).Contents (Elt Ideal)) (x2 : (⟨S32x1376, .i32⟩ : BufTy).Contents (Elt Ideal))
    (x3 : (⟨S32x11008, .f32⟩ : BufTy).Contents (Elt Ideal)) (k : Fin 4096) (n : Fin 11008) :
    val_main_v28 (F := Ideal) x1 x2 x3 (ix2 k n) = Cert.Spec.Wspec x1 x2 x3 k n := by
  rw [val_main_v28_apply, val_main_v27_apply, scales_apply, weightsR_apply, zerosR_apply]
  rfl

/-! ## The product and the bias -/

/-- The activations flattened to 8192 rows: row `2048 a + s` is `(a, s)`. -/
theorem x_apply (x0 : (⟨S4x2048x4096, .f32⟩ : BufTy).Contents (Elt Ideal)) (a : Fin 4) (s : Fin 2048) (k : Fin 4096) :
    val_main_v29 (F := Ideal) x0 (ix2 (⟨a.val * 2048 + s.val, by omega⟩ : Fin 8192) k) = x0 (ix3 a s k) := by
  have e1 : idx_main_v29 (ix2 (⟨a.val * 2048 + s.val, by omega⟩ : Fin 8192) k) = ix3 a s k :=
    funext fun d => Fin.ext (by
      have ha := a.isLt; have hs := s.isLt; have hk := k.isLt
      match d with
      | ⟨0, _⟩ => show ((a.val * 2048 + s.val) * 4096 + k.val) / 8388608 = a.val; omega
      | ⟨1, _⟩ => show ((a.val * 2048 + s.val) * 4096 + k.val) / 4096 % 2048 = s.val; omega
      | ⟨2, _⟩ => show ((a.val * 2048 + s.val) * 4096 + k.val) % 4096 = k.val; omega)
  rw [val_main_v29_apply, e1]

/-- The product at `(a, s, n)`: the sum over the 4096-long axis of activation times dequantised weight. -/
theorem dot_apply (x0 : (⟨S4x2048x4096, .f32⟩ : BufTy).Contents (Elt Ideal)) (x1 : (⟨S512x11008, .i32⟩ : BufTy).Contents (Elt Ideal))
    (x2 : (⟨S32x1376, .i32⟩ : BufTy).Contents (Elt Ideal)) (x3 : (⟨S32x11008, .f32⟩ : BufTy).Contents (Elt Ideal))
    (a : Fin 4) (s : Fin 2048) (n : Fin 11008) :
    val_main_v31 (F := Ideal) x0 x1 x2 x3 (ix3 a s n)
      = ∑ k : Fin 4096, x0 (ix3 a s k) * Cert.Spec.Wspec x1 x2 x3 k n := by
  have e1 : idx_main_v31 (ix3 a s n) = ix2 (⟨a.val * 2048 + s.val, by omega⟩ : Fin 8192) n :=
    funext fun d => Fin.ext (by
      have ha := a.isLt; have hs := s.isLt; have hn := n.isLt
      match d with
      | ⟨0, _⟩ => show ((a.val * 2048 + s.val) * 11008 + n.val) / 11008 = a.val * 2048 + s.val; omega
      | ⟨1, _⟩ => show ((a.val * 2048 + s.val) * 11008 + n.val) % 11008 = n.val; omega)
  rw [val_main_v31_apply, e1, val_main_v30_apply]
  refine Fintype.sum_congr _ _ fun k => ?_
  have el : lidx_main_v30 (ix2 (⟨a.val * 2048 + s.val, by omega⟩ : Fin 8192) n) k
      = ix2 (⟨a.val * 2048 + s.val, by omega⟩ : Fin 8192) k :=
    funext fun d => Fin.ext (by match d with | ⟨0, _⟩ => rfl | ⟨1, _⟩ => rfl)
  have er : ridx_main_v30 (ix2 (⟨a.val * 2048 + s.val, by omega⟩ : Fin 8192) n) k = ix2 k n :=
    funext fun d => Fin.ext (by match d with | ⟨0, _⟩ => rfl | ⟨1, _⟩ => rfl)
  rw [el, er, x_apply, W_apply]

/-- The bias row repeated over `(a, s)`. -/
theorem bias_apply (x4 : (⟨S11008, .f32⟩ : BufTy).Contents (Elt Ideal)) (a : Fin 4) (s : Fin 2048) (n : Fin 11008) :
    val_main_v33 (F := Ideal) x4 (ix3 a s n) = x4 (ix1 n) := by
  have e1 : idx_main_v32 (idx_main_v33 (ix3 a s n)) = ix1 n :=
    funext fun d => Fin.ext (by match d with | ⟨0, _⟩ => rfl)
  rw [val_main_v33_apply, val_main_v32_apply, e1]

/-- The reference's last stage is `Spec.Gspec` of the five arguments. -/
theorem result_eq (x0 : (⟨S4x2048x4096, .f32⟩ : BufTy).Contents (Elt Ideal)) (x1 : (⟨S512x11008, .i32⟩ : BufTy).Contents (Elt Ideal))
    (x2 : (⟨S32x1376, .i32⟩ : BufTy).Contents (Elt Ideal)) (x3 : (⟨S32x11008, .f32⟩ : BufTy).Contents (Elt Ideal))
    (x4 : (⟨S11008, .f32⟩ : BufTy).Contents (Elt Ideal)) :
    val_main_v34 (F := Ideal) x0 x1 x2 x3 x4 = Cert.Spec.Gspec x0 x1 x2 x3 x4 := by
  funext i
  obtain ⟨a, s, n, rfl⟩ : ∃ (a : Fin 4) (s : Fin 2048) (n : Fin 11008), i = ix3 a s n := ⟨i 0, i 1, i 2, eq_ix3 i⟩
  rw [val_main_v34_apply, dot_apply, bias_apply]
  rfl

/-- Every weakly fair execution of the reference terminates with its result at `Spec.Gspec` of the argument arrays, and
    the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v34)
          = Cert.Spec.Gspec (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono
    (fun _ h c => ⟨(h c).1.trans ((val_main_v34_eq (F := Ideal) _ _ _ _ _).trans (result_eq _ _ _ _ _)), (h c).2⟩)
    (Cert.ReferenceIdeal.Value.run (F := Ideal) m ρ)

end Cert.ReferenceIdeal.RefValue

end
-- ==== Proof.lean ====
/-
  The certificate: a weight-quantised linear layer. The kernel dequantises the packed 4-bit weights once, in a first call
  that writes the 4096 x 11008 matrix W[k, n] = scale[k / 128, n] * (nibble(qw[k / 8, n], k % 8) - nibble(qz[k / 128, n / 8], n % 8)),
  and multiplies in a second call that accumulates out = x W over sixteen 256-wide slices of the contracted axis and adds
  the bias at the last; the reference unpacks, dequantises and contracts in one go. On the extended reals a change of
  float format is the identity and a sum is the sum of its slices in any grouping, so both programs compute
  out[a, s, n] = (sum over k of x[a, s, k] * W[k, n]) + bias[n]: `Spec.Gspec` of the five argument arrays. The law that joins
  the two sides is the associativity and commutativity of addition alone; the precondition is never opened.
  The three frames: each program runs to the end and no item of it writes an argument array. The ideal pass rewrote
  nothing, so the idealization claim has no conjunct.
-/
import proofs.«420482_j81174881894900_2_alg».proof.Defs
import proofs.«420482_j81174881894900_2_alg».proof.Proof.Gen.Kernel
import proofs.«420482_j81174881894900_2_alg».proof.Proof.Gen.KernelIdeal
import proofs.«420482_j81174881894900_2_alg».proof.Proof.Gen.ReferenceIdeal
import proofs.«420482_j81174881894900_2_alg».proof.Proof.Gen.Pre_finite_inputs
import proofs.«420482_j81174881894900_2_alg».proof.Proof.Kernel.Frame
import proofs.«420482_j81174881894900_2_alg».proof.Proof.KernelIdeal.KernelValue
import proofs.«420482_j81174881894900_2_alg».proof.Proof.RefValue
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Hand.frame (F := Bits) m ρ

theorem frame_ki : @Cert.frame_KernelIdeal Cert.KernelIdeal.Gen.facts Cert.Pre_finite_inputs.Gen.facts :=
  fun m ρ _ => Cert.KernelIdeal.Hand.frame (F := Ideal) m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.RefValue.run_spec m ρ)

/-- Both programs end with their results at `Spec.Gspec` of arguments that agree. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.Hand.run_spec m ρ, ?_⟩
  refine (θ_run Cert.ReferenceIdeal.defs _ _).mono (fun _ h c => ⟨(h c).1.trans ?_, (h c).2⟩)
    (Cert.ReferenceIdeal.RefValue.run_spec m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
